-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S512x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x128 : Shape := ⟨2, ![4096, 128]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg2 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : FVec F S4x4096x4096 .f32) (main_arg1 : FVec F S4096x128 .f32) (main_arg2 : IVec S4096 32) (main_arg3 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg2 main_v14
  let main_c_5 : IVec S_ 32 := constantI S_ 32 128#32
  fn_part1 (F := F) main_arg2 main_v13 main_v15 main_c_5
-- ==== Kernel.lean ====
abbrev S4x4096x4096 : Shape := ⟨3, ![4, 4096, 4096]⟩
abbrev S4096x128 : Shape := ⟨2, ![4096, 128]⟩
abbrev S4096 : Shape := ⟨1, ![4096]⟩
abbrev S16384x4096 : Shape := ⟨2, ![16384, 4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S128 : Shape := ⟨1, ![128]⟩
abbrev S128x1 : Shape := ⟨2, ![128, 1]⟩
abbrev S1x4096 : Shape := ⟨2, ![1, 4096]⟩
abbrev S128x4096 : Shape := ⟨2, ![128, 4096]⟩
abbrev S512x4096 : Shape := ⟨2, ![512, 4096]⟩
abbrev S512x128 : Shape := ⟨2, ![512, 128]⟩
abbrev S512x512 : Shape := ⟨2, ![512, 512]⟩
abbrev S128x512 : Shape := ⟨2, ![128, 512]⟩
abbrev S1x512 : Shape := ⟨2, ![1, 512]⟩

abbrev nBuf : Space → Nat
  | .hbm => 47
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4096x128, .f32⟩
  | .hbm, ⟨2, _⟩ => ⟨S4096, .i32⟩
  | .hbm, ⟨3, _⟩ => ⟨S4096, .f32⟩
  | .hbm, ⟨4, _⟩ => ⟨S16384x4096, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S1, .i32⟩
  | .hbm, ⟨22, _⟩ => ⟨S_, .i32⟩
  | .hbm, ⟨23, _⟩ => ⟨S4096x1, .i32⟩
  | .hbm, ⟨24, _⟩ => ⟨S4096x1, .i1⟩
  | .hbm, ⟨25, _⟩ => ⟨S1x1, .i32⟩
  | .hbm, ⟨26, _⟩ => ⟨S4096x1, .i32⟩
  | .hbm, ⟨27, _⟩ => ⟨S4096x1, .i1⟩
  | .hbm, ⟨28, _⟩ => ⟨S4096x1, .i1⟩
  | .hbm, ⟨29, _⟩ => ⟨S_, .i1⟩
  | .hbm, ⟨30, _⟩ => ⟨S4096, .i1⟩
  | .hbm, ⟨31, _⟩ => ⟨S4096x128, .f32⟩
  | .hbm, ⟨32, _⟩ => ⟨S4096x128, .i1⟩
  | .hbm, ⟨33, _⟩ => ⟨S_, .f32⟩
  | .hbm, ⟨34, _⟩ => ⟨S4096x128, .f32⟩
  | .hbm, ⟨35, _⟩ => ⟨S4096x128, .f32⟩
  | .hbm, ⟨36, _⟩ => ⟨S4096x128, .bf16⟩
  | .hbm, ⟨37, _⟩ => ⟨S128, .i32⟩
  | .hbm, ⟨38, _⟩ => ⟨S128x1, .i32⟩
  | .hbm, ⟨39, _⟩ => ⟨S1x4096, .i32⟩
  | .hbm, ⟨40, _⟩ => ⟨S128x4096, .i32⟩
  | .hbm, ⟨41, _⟩ => ⟨S128x4096, .i32⟩
  | .hbm, ⟨42, _⟩ => ⟨S128x4096, .i1⟩
  | .hbm, ⟨43, _⟩ => ⟨S128x4096, .bf16⟩
  | .hbm, ⟨44, _⟩ => ⟨S1x4096, .f32⟩
  | .hbm, ⟨45, _⟩ => ⟨S16384x4096, .f32⟩
  | .hbm, ⟨46, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S128x4096, .bf16⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | .local _ .vmem, ⟨7, _⟩ => ⟨S512x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_call1_cst : Ref sig .tc := ⟨.hbm, 33, rfl⟩
abbrev main_call1_v15 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v11 : BitVec 32 := Scalar.muli arg7 c512_i32
  v11
def k0_off1 (k0_t1 : Fin k0_t1_loop.trips) : Fin 2 → Nat :=
  let c0_8 : Index := 0#32
  let c0_i32 : BitVec 32 := 0#32
  let c1_i32 : BitVec 32 := 1#32
  let arg7 : BitVec 32 := Scf.iv c0_i32 c1_i32 k0_t1
  let c512_i32 : BitVec 32 := 512#32
  let v11 : BitVec 32 := Scalar.muli arg7 c512_i32
  let v12 : BitVec 32 := v11
  let v13 : Index := Scalar.indexCast v12
  ![0, v13.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v11 : BitVec 32 := Scalar.muli arg7 c512_i32
  let v12 : BitVec 32 := v11
  let v17 : Index := Scalar.indexCast v12
  let c0_9 : Index := 0#32
  ![v17.toNat, 0]
@[reducible] def k0_t2_loop : Scf.Loop 32 :=
  let c0_i32_4 : BitVec 32 := 0#32
  let c8_i32_5 : BitVec 32 := 8#32
  let v10 : BitVec 32 := Scalar.addi c0_i32_4 c8_i32_5
  let c1_i32_6 : BitVec 32 := 1#32
  ⟨c0_i32_4, v10, c1_i32_6⟩
def k0_mult2 (k0_t2 : Fin k0_t2_loop.trips) : BitVec 32 :=
  let c0_i32_4 : BitVec 32 := 0#32
  let c1_i32_6 : BitVec 32 := 1#32
  let arg7 : BitVec 32 := Scf.iv c0_i32_4 c1_i32_6 k0_t2
  let c512_i32 : BitVec 32 := 512#32
  let v11 : BitVec 32 := Scalar.muli arg7 c512_i32
  v11
def k0_off3 (k0_t2 : Fin k0_t2_loop.trips) : Fin 2 → Nat :=
  let c0_8 : Index := 0#32
  let c0_i32_4 : BitVec 32 := 0#32
  let c1_i32_6 : BitVec 32 := 1#32
  let arg7 : BitVec 32 := Scf.iv c0_i32_4 c1_i32_6 k0_t2
  let c512_i32 : BitVec 32 := 512#32
  let v11 : BitVec 32 := Scalar.muli arg7 c512_i32
  let v12 : BitVec 32 := v11
  let v13 : Index := Scalar.indexCast v12
  ![0, v13.toNat]
def k0_off4 (k0_t2 : Fin k0_t2_loop.trips) : Fin 2 → Nat :=
  let c0_9 : Index := 0#32
  let c0_i32_4 : BitVec 32 := 0#32
  let c1_i32_6 : BitVec 32 := 1#32
  let arg7 : BitVec 32 := Scf.iv c0_i32_4 c1_i32_6 k0_t2
  let c512_i32 : BitVec 32 := 512#32
  let v11 : BitVec 32 := Scalar.muli arg7 c512_i32
  let v12 : BitVec 32 := v11
  let v16 : Index := Scalar.indexCast v12
  ![0, v16.toNat]
def k0_off5 (k0_t2 : Fin k0_t2_loop.trips) : Fin 2 → Nat :=
  let c0_12 : Index := 0#32
  let c0_i32_4 : BitVec 32 := 0#32
  let c1_i32_6 : BitVec 32 := 1#32
  let arg7 : BitVec 32 := Scf.iv c0_i32_4 c1_i32_6 k0_t2
  let c512_i32 : BitVec 32 := 512#32
  let v11 : BitVec 32 := Scalar.muli arg7 c512_i32
  let v12 : BitVec 32 := v11
  let v24 : Index := Scalar.indexCast v12
  ![0, v24.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096x4096_S16384x4096 : S4x4096x4096.ShapeCasts S16384x4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  bitsLt_bf16_f32 : FTy.bits .bf16 < FTy.bits .f32
  bcast_S128_S128x1_0 : S128.BroadcastsInDim S128x1 (![0] : Fin 1 → Fin S128x1.rank)
  bcast_S4096_S1x4096_1 : S4096.BroadcastsInDim S1x4096 (![1] : Fin 1 → Fin S1x4096.rank)
  bcast_S128x1_S128x4096_0_1 : S128x1.BroadcastsInDim S128x4096 (![0, 1] : Fin 2 → Fin S128x4096.rank)
  bcast_S1x4096_S128x4096_0_1 : S1x4096.BroadcastsInDim S128x4096 (![0, 1] : Fin 2 → Fin S128x4096.rank)
  shapeCasts_S4096_S1x4096 : S4096.ShapeCasts S1x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S512x512 : 0 < S512x512.numel
  shapeCasts_S512x512_S512x512 : S512x512.ShapeCasts S512x512
  h_S128x512 : 0 < S128x512.numel
  shapeCasts_S128x512_S128x512 : S128x512.ShapeCasts S128x512
  h_S1x512 : 0 < S1x512.numel
  shapeCasts_S1x512_S1x512 : S1x512.ShapeCasts S1x512
  broadcasts_S1x512_S512x512 : S1x512.Broadcasts S512x512
  shapeCasts_S16384x4096_S4x4096x4096 : S16384x4096.ShapeCasts S4x4096x4096
  gather_S4096x128_S4096x1_S4096x128_1_0_n_n_0_1_1128_wf : GatherDims.WF S4096x128 S4096x1 S4096x128 [1] [0] [] [0] [] 1 ![1, 128]
  dot_S512x512_S512x128_S512x128_1_0_0_1_n_n_wf : DotDims.WF S512x512 S512x128 S512x128 [1] [0] [0] [1] [] []
  dot_S512x128_S128x512_S512x512_1_0_0_1_n_n_wf : DotDims.WF S512x128 S128x512 S512x512 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x512.size a ≤ S512x4096.size a
  k0_off2_inb : ∀ k0_t1 : Fin k0_t1_loop.trips, ∀ a, (k0_off2 k0_t1) a + S512x128.size a ≤ S4096x128.size a
  k0_t2_ok : k0_t2_loop.OK
  k0_mult2_dvd : ∀ k0_t2 : Fin k0_t2_loop.trips, 512 ∣ (k0_mult2 k0_t2).toNat
  k0_off3_inb : ∀ k0_t2 : Fin k0_t2_loop.trips, ∀ a, (k0_off3 k0_t2) a + S128x512.size a ≤ S128x4096.size a
  k0_off4_inb : ∀ k0_t2 : Fin k0_t2_loop.trips, ∀ a, (k0_off4 k0_t2) a + S1x512.size a ≤ S1x4096.size a
  k0_off5_inb : ∀ k0_t2 : Fin k0_t2_loop.trips, ∀ a, (k0_off5 k0_t2) a + S512x512.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x4096.size a
  hwx0_2 : ∀ i : grid0.Coords, EltTy.bits .bf16 = 32 ∨ (Rect.block (s := S128x4096) S128x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S16384x4096.size a
  hwx0_4 : ∀ i : grid0.Coords, EltTy.bits .f32 = 32 ∨ (Rect.block (s := S16384x4096) S512x4096.size (cc0_transform_4 i) (hinb0_4 i)).WholeWords (EltTy.packing .f32)

variable [Facts₀]

def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x128 : Shape := ⟨2, ![4096, 128]⟩
abbrev S4096 : Shape := ⟨1, ![4096]⟩
abbrev S16384x4096 : Shape := ⟨2, ![16384, 4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S16384x128 : Shape := ⟨2, ![16384, 128]⟩
abbrev S1x4096 : Shape := ⟨2, ![1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x128, .f32⟩
  | .hbm, ⟨2, _⟩ => ⟨S4096, .i32⟩
  | .hbm, ⟨3, _⟩ => ⟨S4096, .f32⟩
  | .hbm, ⟨4, _⟩ => ⟨S16384x4096, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S4096x128, .f32⟩
  | .hbm, ⟨24, _⟩ => ⟨S4096x128, .i1⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S16384x128, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S1, .i32⟩
  | .hbm, ⟨38, _⟩ => ⟨S_, .i32⟩
  | .hbm, ⟨39, _⟩ => ⟨S4096x1, .i32⟩
  | .hbm, ⟨40, _⟩ => ⟨S4096x1, .i1⟩
  | .hbm, ⟨41, _⟩ => ⟨S1x1, .i32⟩
  | .hbm, ⟨42, _⟩ => ⟨S4096x1, .i32⟩
  | .hbm, ⟨43, _⟩ => ⟨S4096x1, .i1⟩
  | .hbm, ⟨44, _⟩ => ⟨S4096x1, .i1⟩
  | .hbm, ⟨45, _⟩ => ⟨S_, .i1⟩
  | .hbm, ⟨46, _⟩ => ⟨S4096, .i1⟩
  | .hbm, ⟨47, _⟩ => ⟨S16384x4096, .f32⟩
  | .hbm, ⟨48, _⟩ => ⟨S16384x4096, .i1⟩
  | .hbm, ⟨49, _⟩ => ⟨S_, .f32⟩
  | .hbm, ⟨50, _⟩ => ⟨S16384x4096, .f32⟩
  | .hbm, ⟨51, _⟩ => ⟨S16384x4096, .f32⟩
  | .hbm, ⟨52, _⟩ => ⟨S1x4096, .f32⟩
  | .hbm, ⟨53, _⟩ => ⟨S16384x4096, .f32⟩
  | .hbm, ⟨54, _⟩ => ⟨S16384x4096, .f32⟩
  | .hbm, ⟨55, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩

abbrev nD : Nat := 1
abbrev τ : Topo := Topo.v7x

variable {F : FTy → Type} [FloatOps F]

class Facts₀ : Prop where
  shapeCasts_S4x4096x4096_S16384x4096 : S4x4096x4096.ShapeCasts S16384x4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  bcast_S4096_S16384x4096_1 : S4096.BroadcastsInDim S16384x4096 (![1] : Fin 1 → Fin S16384x4096.rank)
  bcast_S_S16384x4096 : S_.BroadcastsInDim S16384x4096 (![] : Fin 0 → Fin S16384x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x4096_S4x4096x4096 : S16384x4096.ShapeCasts S4x4096x4096
  gather_S4096x128_S4096x1_S4096x128_1_0_n_n_0_1_1128_wf : GatherDims.WF S4096x128 S4096x1 S4096x128 [1] [0] [] [0] [] 1 ![1, 128]
  dot_S16384x4096_S4096x128_S16384x128_1_0_0_1_n_n_wf : DotDims.WF S16384x4096 S4096x128 S16384x128 [1] [0] [0] [1] [] []
  gather_S16384x128_S4096x1_S16384x4096_0_1_n_n_1_1_163841_wf : GatherDims.WF S16384x128 S4096x1 S16384x4096 [0] [1] [] [1] [] 1 ![16384, 1]

variable [Facts₀]

def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf
def gather_S16384x128_S4096x1_S16384x4096_0_1_n_n_1_1_163841 : GatherDims S16384x128 S4096x1 S16384x4096 where
  offsetDims := [0]
  collapsedSliceDims := [1]
  operandBatchingDims := []
  startIndicesBatchingDims := []
  startIndexMap := [1]
  indexVectorDim := 1
  sliceSizes := ![16384, 1]
  wf := gather_S16384x128_S4096x1_S16384x4096_0_1_n_n_1_1_163841_wf

class Facts : Prop extends Facts₀ where

variable [Facts]
-- ==== Proof.Spec.lean ====
/-
  The quantised linear layer as one function of its arguments.

  A codebook table `q : [4096, 128]` and a vector of codes `a : [4096]` (feature `j` has code `a j`, a number below 128)
  define the layer on a flattened batch `xf : [16384, 4096]`:
  feature `j` is represented by ROW `a j` of the table, so the "skinny" product is
    `qm[t, k] = ∑ j, xf[t, j] · q[a j, k]`,
  and output feature `i` reads COLUMN `a i` of it and adds its bias:
    `out[t, i] = qm[t, a i] + bias[i]`.
  Codes are read as signed numbers and cut off at the table's (and the product's) last row (column); for codes in
  range the cut does nothing.
-/
import Idealize.ShloMosaic.PureOps.Ideal
import Idealize.ShloMosaic.Lib.ValueIdx

noncomputable section

namespace VQ

open Idealize.ShloMosaic Idealize.ShloMosaic.ValueIdx

abbrev SX : Shape := ⟨3, ![4, 4096, 4096]⟩
abbrev SF : Shape := ⟨2, ![16384, 4096]⟩
abbrev SQ : Shape := ⟨2, ![4096, 128]⟩
abbrev SM : Shape := ⟨2, ![16384, 128]⟩
abbrev SH : Shape := ⟨2, ![128, 4096]⟩
abbrev SA : Shape := ⟨1, ![4096]⟩

/-- Feature `j`'s code, the 32-bit word read as a signed number (a negative one reads as 0). -/
def code (a : IVec SA 32) (j : Fin 4096) : ℕ := (a (ix1 j)).toInt.toNat

/-- Every code names one of the 128 codebook entries. -/
def InRange (a : IVec SA 32) : Prop := ∀ j : Fin 4096, 0 ≤ (a (ix1 j)).toInt ∧ (a (ix1 j)).toInt < 128

theorem code_lt {a : IVec SA 32} (h : InRange a) (j : Fin 4096) : code a j < 128 := by
  unfold code; have := h j; omega

/-- The table row that represents feature `j`. -/
def rowOf (a : IVec SA 32) (j : Fin 4096) : Fin 4096 := ⟨min (code a j) (4096 - 1), by omega⟩

/-- The column of the skinny product that output feature `i` reads. -/
def colOf (a : IVec SA 32) (i : Fin 4096) : Fin 128 := ⟨min (code a i) (128 - 1), by omega⟩

theorem rowOf_val {a : IVec SA 32} (h : InRange a) (j : Fin 4096) : (rowOf a j).val = code a j := by
  have := code_lt h j; unfold rowOf; simp only; omega

theorem colOf_val {a : IVec SA 32} (h : InRange a) (j : Fin 4096) : (colOf a j).val = code a j := by
  have := code_lt h j; unfold colOf; simp only; omega

/-- Every entry is a real number. -/
def Finite {s : Shape} (x : s.Idx → EReal) : Prop := ∀ i, ∃ r : ℝ, x i = (r : EReal)

/-- The table's rows laid out feature by feature: `g[j, k] = q[a j, k]`. -/
def gathered (q : SQ.Idx → EReal) (a : IVec SA 32) : SQ.Idx → EReal :=
  fun y => q (ix2 (rowOf a (y 0)) (y 1))

/-- The indicator of "entry `k` is feature `i`'s code", as a `[128, 4096]` matrix of zeros and ones. -/
def onehot (a : IVec SA 32) : SH.Idx → EReal :=
  fun y => if (y 0).val = code a (y 1) then 1 else 0

/-- The skinny product `qm[t, k] = ∑ j, xf[t, j] · q[a j, k]`. -/
def qm (xf : SF.Idx → EReal) (q : SQ.Idx → EReal) (a : IVec SA 32) : SM.Idx → EReal :=
  fun y => ∑ j : Fin 4096, xf (ix2 (y 0) j) * q (ix2 (rowOf a j) (y 1))

/-- The layer on the flattened batch: `out[t, i] = qm[t, a i] + bias[i]`. -/
def flatOut (xf : SF.Idx → EReal) (q : SQ.Idx → EReal) (a : IVec SA 32) (bias : SA.Idx → EReal) : SF.Idx → EReal :=
  fun y => qm xf q a (ix2 (y 0) (colOf a (y 1))) + bias (ix1 (y 1))

end VQ

end
-- ==== Proof.PreFacts.lean ====
/-
  The precondition read back. It is a conjunction of four tests, each a reduction by "and" over all indices of a
  pointwise test: for each of the three float arguments, "the absolute value of the entry is below +∞", and for the
  codes, "the word, read as a signed number, is at least 0 and below 128". The conjunction being 1 makes every
  pointwise test 1. An extended real whose absolute value max x (-x) is below ⊤ is neither ⊤ nor ⊥, so it is a real
  number; and the two signed comparisons are the two inequalities of the range.
-/
import proofs.«406552_j35390530520001_3_alg».proof.Pre_finite_inputs
import proofs.«406552_j35390530520001_3_alg».proof.Proof.Gen.Pre_finite_inputs
import proofs.«406552_j35390530520001_3_alg».proof.Proof.Spec
import Idealize.ShloMosaic.Lib.ReduceAll
import Idealize.ShloMosaic.PureOps.Ideal

noncomputable section

namespace VQ.Pre

open Idealize.ShloMosaic Idealize.ShloMosaic.ValueIdx

/-- The rank-0 shape has exactly one index. -/
instance : Subsingleton Cert.Pre_finite_inputs.S_.Idx := ⟨fun a b => funext fun d => d.elim0⟩

/-- The bit pattern 0x7F800000 of the 32-bit format denotes +∞. -/
theorem inf_pattern : Ideal.ofBits .f32 0x7F800000#32 = ⊤ := by simp [Ideal.ofBits, Ideal.ieee]

/-- An extended real whose absolute value `max x (-x)` tests below +∞ is a real number: at ⊤ and at ⊥ the absolute
    value is ⊤, which is not below itself. -/
theorem real_of_abs_lt (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

/-- A 32-bit word that tests "signed ≥ 0" and "signed < 128" is a signed number in [0, 128). -/
theorem range_of_tests (w : BitVec 32)
    (h : IntOp.andi (IntOp.cmpi .sge w (0#32)) (IntOp.cmpi .slt w (128#32)) = 1#1) : 0 ≤ w.toInt ∧ w.toInt < 128 := by
  rw [IntOp.andi_eq_one, IntOp.cmpi_sge, IntOp.cmpi_slt] at h
  have h0 : (0#32 : BitVec 32).toInt = 0 := by decide
  have h128 : (128#32 : BitVec 32).toInt = 128 := by decide
  rw [h0, h128] at h
  exact h

/-- The precondition decoded: every entry of the three float arguments is a real number, and every code is in [0, 128). -/
theorem decode (x : FVec Ideal Cert.Pre_finite_inputs.S4x4096x4096 .f32) (q : FVec Ideal Cert.Pre_finite_inputs.S4096x128 .f32)
    (a : IVec Cert.Pre_finite_inputs.S4096 32) (b : FVec Ideal Cert.Pre_finite_inputs.S4096 .f32)
    (h : Cert.Pre_finite_inputs.fn (F := Ideal) x q a b = fun _ => 1#1) :
    VQ.Finite x ∧ VQ.Finite q ∧ VQ.Finite b ∧ VQ.InRange a := by
  -- the result has one index; there the four-fold conjunction is 1, so each conjunct is
  have e := congrFun h ValueIdx.ix0
  dsimp only [Cert.Pre_finite_inputs.fn, Cert.Pre_finite_inputs.fn_part1] at e
  change IntOp.andi (IntOp.andi (IntOp.andi _ _) _) _ = 1#1 at e
  rw [IntOp.andi_eq_one, IntOp.andi_eq_one, IntOp.andi_eq_one] at e
  obtain ⟨⟨⟨hx, hq⟩, hb⟩, ha⟩ := e
  -- each conjunct is an "and" over all indices that is 1: the pointwise test is 1 at every index
  refine ⟨fun i => ?_, fun i => ?_, fun i => ?_, fun j => ?_⟩
  · exact real_of_abs_lt _ (Host.reduce_andi_all _ _ _ _ _ hx i)
  · exact real_of_abs_lt _ (Host.reduce_andi_all _ _ _ _ _ hq i)
  · exact real_of_abs_lt _ (Host.reduce_andi_all _ _ _ _ _ hb i)
  · exact range_of_tests _ (Host.reduce_andi_all _ _ _ _ _ ha (ix1 j))

end VQ.Pre

end
-- ==== Proof.RefRun.lean ====
/-
  The reference program's run, read back as one term of its four arguments.

  The reference flattens the batch, looks the codebook rows up feature by feature (`jnp.take` along axis 0),
  multiplies, looks the product's columns up output feature by output feature (`jnp.take` along axis 1), adds
  the bias along rows and restores the batch's shape. Each `jnp.take` is a module-local function: it wraps a
  negative index once by the axis length, gathers with the wrapped index clamped into the axis, and replaces by a
  NaN every entry whose wrapped index was outside the axis. Below the three calls are written out at their call
  sites, which makes @main one straight line of 52 pure operations; its run then ends with the result buffer at the
  operations' composition, `refTerm`, and the arguments unchanged.
-/
import proofs.«406552_j35390530520001_3_alg».proof.Defs
import proofs.«406552_j35390530520001_3_alg».proof.Proof.Gen.ReferenceIdeal
import proofs.«406552_j35390530520001_3_alg».proof.Proof.Spec
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem
  Idealize.ShloMosaic.StableHlo

section Ops

variable {F : FTy → Type} [FloatOps F]

/-- @main's 52 operations in order, the calls written out: the reshape; `_take`'s twenty-three over the first
    call's buffers (the wrapped index — a comparison with zero, the sum with the axis length 4096, `_where`'s
    select —, its column, the two range tests against 0 and 4095 and their conjunction reduced over the unit axis,
    the row gather, the mask and the NaN broadcast, the select); the product; `_take_0`'s twenty-three over the
    second call's buffers (the same with axis length 128, last column 127 and the column gather); the bias
    broadcast twice, the sum, the reshape. -/
abbrev ops : List (HloOp τ sig (Elt F)) :=
  [ reshape main_arg0 main_v0 rfl shapeCasts_S4x4096x4096_S16384x4096,
    TRef.nullary main_call0.c (constantI S_ 32 0#32),
    TRef.unary main_call0.c main_call0.v0 (broadcastInDim S4096 ![] bcast_S_S4096),
    TRef.binary (.of main_arg2) main_call0.v0 main_call0.v1 (cmpi .slt),
    TRef.nullary main_call0.c_0 (constantI S_ 32 4096#32),
    TRef.unary main_call0.c_0 main_call0.v2 (broadcastInDim S4096 ![] bcast_S_S4096),
    TRef.binary (.of main_arg2) main_call0.v2 main_call0.v3 addi,
    TRef.ternary main_call0.v1 main_call0.v3 (.of main_arg2) main_call0.call0.v0 select,
    TRef.unary main_call0.call0.v0 main_call0.v5 (broadcastInDim S4096x1 ![0] bcast_S4096_S4096x1_0),
    TRef.nullary main_call0.c_1 (constantI S1 32 4095#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1) main_call0.v5 main_call0.v13 (fun x i => Host.gather gather_S4096x128_S4096x1_S4096x128_1_0_n_n_0_1_1128 x i),
    TRef.unary main_call0.v12 main_call0.v14 (broadcastInDim S4096x128 ![0] bcast_S4096_S4096x128_0),
    TRef.nullary main_call0.cst (constant S_ .f32 0x7FC00000#32),
    TRef.unary main_call0.cst main_call0.v15 (broadcastInDim S4096x128 ![] bcast_S_S4096x128),
    TRef.ternary main_call0.v14 main_call0.v13 main_call0.v15 main_call0.v16 select,
    binary main_v0 main_v1 main_v2 ((fun l r => Host.dotGeneral dot_S16384x4096_S4096x128_S16384x128_1_0_0_1_n_n none l r) : (⟨S16384x4096, .f32⟩ : BufTy).Contents (Elt F) → (⟨S4096x128, .f32⟩ : BufTy).Contents (Elt F) → (⟨S16384x128, .f32⟩ : BufTy).Contents (Elt F)),
    TRef.nullary main_call1.c (constantI S_ 32 0#32),
    TRef.unary main_call1.c main_call1.v0 (broadcastInDim S4096 ![] bcast_S_S4096),
    TRef.binary (.of main_arg2) main_call1.v0 main_call1.v1 (cmpi .slt),
    TRef.nullary main_call1.c_0 (constantI S_ 32 128#32),
    TRef.unary main_call1.c_0 main_call1.v2 (broadcastInDim S4096 ![] bcast_S_S4096),
    TRef.binary (.of main_arg2) main_call1.v2 main_call1.v3 addi,
    TRef.ternary main_call1.v1 main_call1.v3 (.of main_arg2) main_call1.call0.v0 select,
    TRef.unary main_call1.call0.v0 main_call1.v5 (broadcastInDim S4096x1 ![0] bcast_S4096_S4096x1_0),
    TRef.nullary main_call1.c_1 (constantI S1 32 127#32),
    TRef.nullary main_call1.c_2 (constantI S_ 32 0#32),
    TRef.unary main_call1.c_2 main_call1.v6 (broadcastInDim S4096x1 ![] bcast_S_S4096x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4096x1 ![0, 1] bcast_S1x1_S4096x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x1_S4096_d1 h_S_),
    TRef.binary (.of main_v2) main_call1.v5 main_call1.v13 (fun x i => Host.gather gather_S16384x128_S4096x1_S16384x4096_0_1_n_n_1_1_163841 x i),
    TRef.unary main_call1.v12 main_call1.v14 (broadcastInDim S16384x4096 ![1] bcast_S4096_S16384x4096_1),
    TRef.nullary main_call1.cst (constant S_ .f32 0x7FC00000#32),
    TRef.unary main_call1.cst main_call1.v15 (broadcastInDim S16384x4096 ![] bcast_S_S16384x4096),
    TRef.ternary main_call1.v14 main_call1.v13 main_call1.v15 main_call1.v16 select,
    unary main_arg3 main_v4 (broadcastInDim S1x4096 ![1] bcast_S4096_S1x4096_1 : (⟨S4096, .f32⟩ : BufTy).Contents (Elt F) → (⟨S1x4096, .f32⟩ : BufTy).Contents (Elt F)),
    unary main_v4 main_v5 (broadcastInDim S16384x4096 ![0, 1] bcast_S1x4096_S16384x4096_0_1 : (⟨S1x4096, .f32⟩ : BufTy).Contents (Elt F) → (⟨S16384x4096, .f32⟩ : BufTy).Contents (Elt F)),
    binary main_v3 main_v5 main_v6 (addf : (⟨S16384x4096, .f32⟩ : BufTy).Contents (Elt F) → (⟨S16384x4096, .f32⟩ : BufTy).Contents (Elt F) → (⟨S16384x4096, .f32⟩ : BufTy).Contents (Elt F)),
    reshape main_v6 main_v7 rfl shapeCasts_S16384x4096_S4x4096x4096 ]

-- fifty-two binds re-associated: the rewrite under the chain recurses once per statement
set_option maxRecDepth 4096 in
/-- @main is that straight line: the functions' definitions unfolded at their calls, both sides are one chain of
    host steps once sequencing is re-associated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., reshape_bufs_sub ..⟩

end Ops

/-! ## The composed term -/

/-- A `take`'s index column: a code below zero is wrapped once by the axis length `n`, and the vector of codes is
    laid out as a column. -/
def takeIdx (n : BitVec 32) (a : IVec S4096 32) : IVec S4096x1 32 :=
  broadcastInDim S4096x1 ![0] bcast_S4096_S4096x1_0
    (select (cmpi .slt a (broadcastInDim S4096 ![] bcast_S_S4096 (constantI S_ 32 0#32)))
      (addi a (broadcastInDim S4096 ![] bcast_S_S4096 (constantI S_ 32 n))) a)

/-- A `take`'s in-range mask: entry `j` is one iff the wrapped index `idx[j, 0]` lies in `[0, hi]` as a signed
    number (the conjunction of the two tests, reduced over the column's unit axis). -/
def takeMask (hi : BitVec 32) (idx : IVec S4096x1 32) : IVec S4096 1 :=
  Host.reduce IntOp.andi
    (andi (cmpi .sge idx (broadcastInDim S4096x1 ![] bcast_S_S4096x1 (constantI S_ 32 0#32)))
      (cmpi .sle idx (broadcastInDim S4096x1 ![0, 1] bcast_S1x1_S4096x1_0_1
        (broadcastInDim S1x1 ![1] bcast_S1_S1x1_1 (constantI S1 32 hi)))))
    (constantI S_ 1 1#1) reducesTo_S4096x1_S4096_d1 h_S_

/-- `jnp.take(q, a, axis=0)`: the table's rows at the wrapped codes, a NaN row where a wrapped code is outside
    the table. -/
def takeRows (q : FVec Ideal S4096x128 .f32) (a : IVec S4096 32) : FVec Ideal S4096x128 .f32 :=
  select (broadcastInDim S4096x128 ![0] bcast_S4096_S4096x128_0 (takeMask 4095#32 (takeIdx 4096#32 a)))
    (Host.gather gather_S4096x128_S4096x1_S4096x128_1_0_n_n_0_1_1128 q (takeIdx 4096#32 a))
    (broadcastInDim S4096x128 ![] bcast_S_S4096x128 (constant S_ .f32 0x7FC00000#32))

/-- The skinny product of the flattened batch with the gathered rows. -/
def skinny (xf : FVec Ideal S16384x4096 .f32) (q : FVec Ideal S4096x128 .f32) (a : IVec S4096 32) :
    FVec Ideal S16384x128 .f32 :=
  Host.dotGeneral dot_S16384x4096_S4096x128_S16384x128_1_0_0_1_n_n none xf (takeRows q a)

/-- `jnp.take(p, a, axis=1)`: the product's columns at the wrapped codes, a NaN column where a wrapped code is
    outside the product. -/
def takeCols (p : FVec Ideal S16384x128 .f32) (a : IVec S4096 32) : FVec Ideal S16384x4096 .f32 :=
  select (broadcastInDim S16384x4096 ![1] bcast_S4096_S16384x4096_1 (takeMask 127#32 (takeIdx 128#32 a)))
    (Host.gather gather_S16384x128_S4096x1_S16384x4096_0_1_n_n_1_1_163841 p (takeIdx 128#32 a))
    (broadcastInDim S16384x4096 ![] bcast_S_S16384x4096 (constant S_ .f32 0x7FC00000#32))

/-- The reference on the flattened batch: the gathered columns of the skinny product plus the bias along rows. -/
def refFlat (xf : FVec Ideal S16384x4096 .f32) (q : FVec Ideal S4096x128 .f32) (a : IVec S4096 32)
    (b : FVec Ideal S4096 .f32) : FVec Ideal S16384x4096 .f32 :=
  addf (takeCols (skinny xf q a) a)
    (broadcastInDim S16384x4096 ![0, 1] bcast_S1x4096_S16384x4096_0_1
      (broadcastInDim S1x4096 ![1] bcast_S4096_S1x4096_1 b))

/-- The reference's result as a term of its arguments: flatten, `refFlat`, restore the shape. -/
def refTerm (x : FVec Ideal S4x4096x4096 .f32) (q : FVec Ideal S4096x128 .f32) (a : IVec S4096 32)
    (b : FVec Ideal S4096 .f32) : FVec Ideal S4x4096x4096 .f32 :=
  shapeCast S4x4096x4096 (refFlat (shapeCast S16384x4096 x shapeCasts_S4x4096x4096_S16384x4096) q a b)
    shapeCasts_S16384x4096_S4x4096x4096

/-! ## The run -/

attribute [local irreducible] Host.reduce Host.gather in
set_option maxRecDepth 8192 in
set_option maxHeartbeats 4000000 in
/-- On every device, from any memory with zero counters: every weakly fair execution of @main terminates with the
    result buffer at `refTerm` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v7).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefValue

end
-- ==== Proof.LibRowGather.lean ====
/-
  A row gather read at an index.

  jnp's `table[idx]` of a matrix `table : [N, C]` at a vector of row numbers lowers to a `stablehlo.gather` whose
  start indices are the column `[n, 1]` of row numbers: operand axis 0 is collapsed and is the one start-indexed axis,
  axis 1 of the result is the one offset axis and carries the whole row (slice sizes `[1, C]`). Result element
  `(k, q)` is then the table's entry `(r, q)`, where `r` is the `k`-th row number read as a signed integer and
  clamped into `[0, N - 1]`: a row gather never reads outside the table, a negative row number reads row 0 and one
  past the end reads the last row.
-/
import Idealize.ShloMosaic.Lib.ValueIdx

noncomputable section

namespace Idealize.ShloMosaic.RowGather

open Idealize.ShloMosaic Idealize.ShloMosaic.ValueIdx

variable {α : Type}

/-- The dimension numbers of a row gather from a table `[N, C]` by a column `[n, 1]` of row numbers into `[n, C]`; their
    conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, q)`: the table at row `idx[k, 0]`, read signed and clamped into `[0, N - 1]`, and
    column `q`. On the row axis the start is the clamped row number and nothing is added to it (the axis is collapsed and
    there is no batching axis); on the column axis the start is zero (the axis is not start-indexed) and the offset is
    the result's own column. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (k : Fin n) (q : Fin C) :
    Host.gather (rowDims N C n wf) x idx (ix2 k q)
      = x (ix2 ⟨min (idx (ix2 k (0 : Fin 1))).toInt.toNat (N - 1), by omega⟩ q) := by
  unfold Host.gather
  congr 1
  funext a
  refine Fin.ext ?_
  match a with
  | ⟨0, _⟩ =>
    show (rowDims N C n wf).start (ix2 k q) idx 0 + (rowDims N C n wf).batchCoord (ix2 k q) 0
        + (rowDims N C n wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 k q) ⟨List.idxOf (0 : Fin 2) (rowDims N C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowDims N C n wf).start (ix2 k q) idx 1 + (rowDims N C n wf).batchCoord (ix2 k q) 1
        + (rowDims N C n wf).offCoord (ix2 k q) 1 = q.val
    rw [GatherDims.batchCoord_eq_zero _ _ _ List.not_mem_nil]
    unfold GatherDims.start
    have h1 : ¬ (1 : Fin 2) ∈ ([0] : List (Fin 2)) := by decide
    rw [dif_neg (show ¬ (1 : Fin 2) ∈ (rowDims N C n wf).startIndexMap from h1)]
    unfold GatherDims.offCoord
    rw [dif_pos ((GatherDims.mem_sKept _ _).mpr ⟨h1, List.not_mem_nil⟩), Nat.zero_add]
    rfl

end Idealize.ShloMosaic.RowGather

end
-- ==== Proof.LibColGather.lean ====
/-
  A column gather read at an index.

  jnp's `table[:, idx]` of a matrix `table : [R, C]` at a vector of column numbers lowers to a `stablehlo.gather`
  whose start indices are the column `[n, 1]` of column numbers: operand axis 1 is collapsed and is the one
  start-indexed axis, axis 0 of the result is the one offset axis and carries the whole column (slice sizes `[R, 1]`),
  axis 1 of the result is the batch axis and runs over the column numbers. Result element `(r, k)` is then the
  table's entry `(r, c)`, where `c` is the `k`-th column number read as a signed integer and clamped into
  `[0, C - 1]`: a column gather never reads outside the table, a negative column number reads column 0 and one past
  the end reads the last column.
-/
import Idealize.ShloMosaic.Lib.ValueIdx

noncomputable section

namespace Idealize.ShloMosaic.ColGather

open Idealize.ShloMosaic Idealize.ShloMosaic.ValueIdx

variable {α : Type}

/-- The dimension numbers of a column gather from a table `[R, C]` by a column `[n, 1]` of column numbers into
    `[R, n]`; their conditions `wf` are decided on a program's literal shapes. -/
abbrev colDims (R C n : Nat)
    (wf : GatherDims.WF ⟨2, ![R, C]⟩ ⟨2, ![n, 1]⟩ ⟨2, ![R, n]⟩ [0] [1] [] [1] [] 1 ![R, 1]) :
    GatherDims ⟨2, ![R, C]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- THE COLUMN GATHER READ AT `(r, k)`: the table at row `r` and column `idx[k, 0]`, read signed and clamped into
    `[0, C - 1]`. On the row axis the start is zero (the axis is not start-indexed) and the offset is the result's own
    row; on the column axis the start is the clamped column number and nothing is added to it (the axis is collapsed
    and there is no batching axis). -/
theorem gather_cols_apply {R C n w : Nat} (hC : 0 < C)
    (wf : GatherDims.WF ⟨2, ![R, C]⟩ ⟨2, ![n, 1]⟩ ⟨2, ![R, n]⟩ [0] [1] [] [1] [] 1 ![R, 1])
    (x : (⟨2, ![R, C]⟩ : Shape).Idx → α) (idx : IVec ⟨2, ![n, 1]⟩ w) (r : Fin R) (k : Fin n) :
    Host.gather (colDims R C n wf) x idx (ix2 r k)
      = x (ix2 r ⟨min (idx (ix2 k (0 : Fin 1))).toInt.toNat (C - 1), by omega⟩) := by
  unfold Host.gather
  congr 1
  funext a
  refine Fin.ext ?_
  match a with
  | ⟨0, _⟩ =>
    show (colDims R C n wf).start (ix2 r k) idx 0 + (colDims R C n wf).batchCoord (ix2 r k) 0
        + (colDims R C n wf).offCoord (ix2 r k) 0 = r.val
    rw [GatherDims.batchCoord_eq_zero _ _ _ List.not_mem_nil]
    unfold GatherDims.start
    have h0 : ¬ (0 : Fin 2) ∈ ([1] : List (Fin 2)) := by decide
    rw [dif_neg (show ¬ (0 : Fin 2) ∈ (colDims R C n wf).startIndexMap from h0)]
    unfold GatherDims.offCoord
    rw [dif_pos ((GatherDims.mem_sKept _ _).mpr ⟨h0, List.not_mem_nil⟩), Nat.zero_add]
    rfl
  | ⟨1, _⟩ =>
    show (colDims R C n wf).start (ix2 r k) idx 1 + (colDims R C n wf).batchCoord (ix2 r k) 1
        + (colDims R C n wf).offCoord (ix2 r k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R C n wf).startIndexMap from List.mem_singleton.mpr rfl)]
    have hsi : (colDims R C n wf).siIdx (ix2 r k) ⟨List.idxOf (1 : Fin 2) (colDims R C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl

end Idealize.ShloMosaic.ColGather

end
-- ==== Proof.RefRead.lean ====
/-
  The reference's result, read as the layer's specification.

  With every code a signed number in `[0, 128)` each of the reference's two `jnp.take`s is a plain lookup:
  no code is negative, so nothing is wrapped and the index column holds the codes themselves; every code lies inside
  the axis it indexes (4096 table rows, 128 product columns), so the in-range mask is all ones and the select keeps
  the gather; and a gather reads at the code clamped into the axis, which for a code in range is the code. The
  row gather at `(j, k)` is therefore `q[a j, k]`, the product at `(t, k)` is `∑ j, xf[t, j] · q[a j, k]`,
  the column gather at `(t, i)` is that product's entry `(t, a i)`, and the bias broadcast along rows adds
  `bias[i]`. The final reshape is kept as it is on both sides.
-/
import proofs.«406552_j35390530520001_3_alg».proof.Proof.RefRun
import proofs.«406552_j35390530520001_3_alg».proof.Proof.LibRowGather
import proofs.«406552_j35390530520001_3_alg».proof.Proof.LibColGather
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Signed compares of a word that is not negative -/

theorem cmpi_slt_zero {w : BitVec 32} (h : 0 ≤ w.toInt) : IntOp.cmpi .slt w 0#32 = 0#1 := by
  have hn : ¬ w.toInt < 0 := by omega
  simp [IntOp.cmpi, BitVec.slt, hn]

theorem cmpi_sge_zero {w : BitVec 32} (h : 0 ≤ w.toInt) : IntOp.cmpi .sge w 0#32 = 1#1 := by
  simp [IntOp.cmpi, BitVec.sle, h]

theorem cmpi_sle_of_le {w hi : BitVec 32} (h : w.toInt ≤ hi.toInt) : IntOp.cmpi .sle w hi = 1#1 := by
  simp [IntOp.cmpi, BitVec.sle, h]

/-! ## A conjunction reduced over an axis, all of whose operands are one -/

theorem foldl_andi_one {ι : Type} (f : ι → BitVec 1) (hf : ∀ n, f n = 1#1) :
    ∀ l : List ι, l.foldl (fun r n => IntOp.andi r (f n)) 1#1 = 1#1
  | [] => rfl
  | n :: l => by
    rw [List.foldl_cons, hf n]
    exact foldl_andi_one f hf l

theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) (fun n => hx _) _

/-! ## The program's broadcasts read at an index -/

theorem bcast_col_apply {α : Type} (v : S4096.Idx → α) (i : S4096x1.Idx) :
    broadcastInDim S4096x1 ![0] bcast_S4096_S4096x1_0 v i = v (ix1 (i 0)) :=
  broadcastInDim_apply (s := S4096) (t := S4096x1) _ _ v i (ix1 (i 0)) (fun b => match b with | ⟨0, _⟩ => rfl)

theorem bcast_rowsOf_apply {α : Type} (v : S4096.Idx → α) (y : S4096x128.Idx) :
    broadcastInDim S4096x128 ![0] bcast_S4096_S4096x128_0 v y = v (ix1 (y 0)) :=
  broadcastInDim_apply (s := S4096) (t := S4096x128) _ _ v y (ix1 (y 0)) (fun b => match b with | ⟨0, _⟩ => rfl)

theorem bcast_colsOf_apply {α : Type} (v : S4096.Idx → α) (y : S16384x4096.Idx) :
    broadcastInDim S16384x4096 ![1] bcast_S4096_S16384x4096_1 v y = v (ix1 (y 1)) :=
  broadcastInDim_apply (s := S4096) (t := S16384x4096) _ _ v y (ix1 (y 1)) (fun b => match b with | ⟨0, _⟩ => rfl)

/-- The bias laid along rows: `[4096] → [1, 4096] → [16384, 4096]` reads, at `(t, i)`, the bias at `i`. -/
theorem bcast_bias_apply {α : Type} (v : S4096.Idx → α) (y : S16384x4096.Idx) :
    broadcastInDim S16384x4096 ![0, 1] bcast_S1x4096_S16384x4096_0_1
      (broadcastInDim S1x4096 ![1] bcast_S4096_S1x4096_1 v) y = v (ix1 (y 1)) := by
  rw [broadcastInDim_apply (s := S1x4096) (t := S16384x4096) _ _ _ y (ix2 (0 : Fin 1) (y 1))
      (fun b => match b with | ⟨0, _⟩ => rfl | ⟨1, _⟩ => rfl)]
  exact broadcastInDim_apply (s := S4096) (t := S1x4096) _ _ v _ (ix1 (y 1)) (fun b => match b with | ⟨0, _⟩ => rfl)

/-! ## The two gathers under codes in range -/

/-- With no negative code nothing is wrapped: the index column holds the codes themselves. -/
theorem takeIdx_apply (n : BitVec 32) (a : IVec S4096 32) (h : VQ.InRange a) (i : S4096x1.Idx) :
    takeIdx n a i = a (ix1 (i 0)) := by
  unfold takeIdx
  rw [bcast_col_apply, select_apply]
  show Scalar.select (IntOp.cmpi .slt (a (ix1 (i 0))) 0#32) _ _ = _
  rw [cmpi_slt_zero (h (i 0)).1, select_zero]

/-- A column of signed numbers all in `[0, hi]` passes both range tests everywhere. -/
theorem takeMask_one (hi : BitVec 32) (idx : IVec S4096x1 32)
    (h : ∀ i, 0 ≤ (idx i).toInt ∧ (idx i).toInt ≤ hi.toInt) (k : S4096.Idx) : takeMask hi idx k = 1#1 := by
  unfold takeMask
  refine reduce_andi_one _ _ _ _ (fun i => ?_) (fun _ => rfl) k
  show IntOp.andi (IntOp.cmpi .sge (idx i) 0#32) (IntOp.cmpi .sle (idx i) hi) = 1#1
  rw [cmpi_sge_zero (h i).1, cmpi_sle_of_le (h i).2]
  rfl

theorem takeMask_rows (a : IVec S4096 32) (h : VQ.InRange a) (k : S4096.Idx) :
    takeMask 4095#32 (takeIdx 4096#32 a) k = 1#1 :=
  takeMask_one _ _ (fun i => by
    rw [takeIdx_apply _ _ h]
    have := h (i 0)
    have e : (4095#32 : BitVec 32).toInt = 4095 := by decide
    rw [e]; omega) k

theorem takeMask_cols (a : IVec S4096 32) (h : VQ.InRange a) (k : S4096.Idx) :
    takeMask 127#32 (takeIdx 128#32 a) k = 1#1 :=
  takeMask_one _ _ (fun i => by
    rw [takeIdx_apply _ _ h]
    have := h (i 0)
    have e : (127#32 : BitVec 32).toInt = 127 := by decide
    rw [e]; omega) k

/-- The row gather's dimension numbers are the general row gather's at this table. -/
theorem rowDims_eq : gather_S4096x128_S4096x1_S4096x128_1_0_n_n_0_1_1128
    = RowGather.rowDims 4096 128 4096 gather_S4096x128_S4096x1_S4096x128_1_0_n_n_0_1_1128_wf := rfl

/-- The column gather's dimension numbers are the general column gather's at this product. -/
theorem colDims_eq : gather_S16384x128_S4096x1_S16384x4096_0_1_n_n_1_1_163841
    = ColGather.colDims 16384 128 4096 gather_S16384x128_S4096x1_S16384x4096_0_1_n_n_1_1_163841_wf := rfl

/-- `jnp.take(q, a, axis=0)` at `(j, k)` is the table's row `a j`, column `k`. -/
theorem takeRows_apply (q : FVec Ideal S4096x128 .f32) (a : IVec S4096 32) (h : VQ.InRange a) (y : S4096x128.Idx) :
    takeRows q a y = q (ix2 (VQ.rowOf a (y 0)) (y 1)) := by
  unfold takeRows
  rw [select_apply, bcast_rowsOf_apply, takeMask_rows a h, select_one, rowDims_eq]
  have hg := RowGather.gather_rows_apply (N := 4096) (C := 128) (n := 4096) (by decide)
    gather_S4096x128_S4096x1_S4096x128_1_0_n_n_0_1_1128_wf q (takeIdx 4096#32 a) (y 0) (y 1)
  refine Eq.trans (congrArg (Host.gather _ q _) (eq_ix2 (n0 := 4096) (n1 := 128) y)) (hg.trans ?_)
  congr 2
  refine Fin.ext ?_
  show min (takeIdx 4096#32 a (ix2 (y 0) (0 : Fin 1))).toInt.toNat (4096 - 1) = min (VQ.code a (y 0)) (4096 - 1)
  rw [takeIdx_apply _ _ h]
  rfl

/-- `jnp.take(p, a, axis=1)` at `(t, i)` is the product's row `t`, column `a i`. -/
theorem takeCols_apply (p : FVec Ideal S16384x128 .f32) (a : IVec S4096 32) (h : VQ.InRange a) (y : S16384x4096.Idx) :
    takeCols p a y = p (ix2 (y 0) (VQ.colOf a (y 1))) := by
  unfold takeCols
  rw [select_apply, bcast_colsOf_apply, takeMask_cols a h, select_one, colDims_eq]
  have hg := ColGather.gather_cols_apply (R := 16384) (C := 128) (n := 4096) (by decide)
    gather_S16384x128_S4096x1_S16384x4096_0_1_n_n_1_1_163841_wf p (takeIdx 128#32 a) (y 0) (y 1)
  refine Eq.trans (congrArg (Host.gather _ p _) (eq_ix2 (n0 := 16384) (n1 := 4096) y)) (hg.trans ?_)
  congr 2
  refine Fin.ext ?_
  show min (takeIdx 128#32 a (ix2 (y 1) (0 : Fin 1))).toInt.toNat (128 - 1) = min (VQ.code a (y 1)) (128 - 1)
  rw [takeIdx_apply _ _ h]
  rfl

/-! ## The product read at an index -/

/-- The product's dimension numbers: axis 1 of the flattened batch against axis 0 of the gathered rows. -/
abbrev D : DotDims S16384x4096 S4096x128 S16384x128 := dot_S16384x4096_S4096x128_S16384x128_1_0_0_1_n_n

theorem lhs_0 (j : S16384x128.Idx) (k : D.contr.Idx) : (D.lhsIdx j k 0 : ℕ) = j 0 := by
  simp [DotDims.lhsIdx, D, dot_S16384x4096_S4096x128_S16384x128_1_0_0_1_n_n]; rfl
theorem lhs_1 (j : S16384x128.Idx) (k : D.contr.Idx) : (D.lhsIdx j k 1 : ℕ) = k ⟨0, by decide⟩ := by
  simp [DotDims.lhsIdx, D, dot_S16384x4096_S4096x128_S16384x128_1_0_0_1_n_n]; rfl
theorem rhs_0 (j : S16384x128.Idx) (k : D.contr.Idx) : (D.rhsIdx j k 0 : ℕ) = k ⟨0, by decide⟩ := by
  simp [DotDims.rhsIdx, D, dot_S16384x4096_S4096x128_S16384x128_1_0_0_1_n_n]; rfl
theorem rhs_1 (j : S16384x128.Idx) (k : D.contr.Idx) : (D.rhsIdx j k 1 : ℕ) = j 1 := by
  simp [DotDims.rhsIdx, D, dot_S16384x4096_S4096x128_S16384x128_1_0_0_1_n_n]; rfl

/-- The contraction runs over the 4096 features. -/
def contrEquiv : D.contr.Idx ≃ Fin 4096 := contrEquiv1 D 4096 (by decide) (by decide)

theorem contrEquiv_symm_val (i : Fin 4096) : ((contrEquiv.symm i) ⟨0, by decide⟩ : ℕ) = i.val :=
  contrEquiv1_symm_val D 4096 (by decide) (by decide) i

/-- The skinny product at `(t, k)` is `∑ j, xf[t, j] · q[a j, k]`. -/
theorem skinny_apply (xf : FVec Ideal S16384x4096 .f32) (q : FVec Ideal S4096x128 .f32) (a : IVec S4096 32)
    (h : VQ.InRange a) (y : S16384x128.Idx) : skinny xf q a y = VQ.qm xf q a y := by
  unfold skinny VQ.qm
  simp only [Host.dotGeneral]
  rw [Ideal.dotGeneral_apply, ← Equiv.sum_comp contrEquiv.symm]
  refine Finset.sum_congr rfl fun j _ => ?_
  rw [takeRows_apply _ _ h]
  refine congrArg₂ (· * ·) (congrArg xf ?_) (congrArg q ?_)
  · exact Shape.idx_ext₂ (lhs_0 y _) ((lhs_1 y _).trans (contrEquiv_symm_val j))
  · have e0 : D.rhsIdx y (contrEquiv.symm j) 0 = j := Fin.ext ((rhs_0 y _).trans (contrEquiv_symm_val j))
    rw [e0]
    exact Shape.idx_ext₂ rfl (rhs_1 y _)

/-! ## The reference as the layer's specification -/

/-- On the flattened batch the reference is the layer: `out[t, i] = qm[t, a i] + bias[i]`. -/
theorem refFlat_eq (xf : FVec Ideal S16384x4096 .f32) (q : FVec Ideal S4096x128 .f32) (a : IVec S4096 32)
    (b : FVec Ideal S4096 .f32) (h : VQ.InRange a) : refFlat xf q a b = VQ.flatOut xf q a b := by
  funext y
  unfold refFlat VQ.flatOut
  rw [addf_apply, takeCols_apply _ _ h, bcast_bias_apply, skinny_apply _ _ _ h]

/-- THE REFERENCE'S RESULT under codes in range: the layer on the flattened batch, reshaped back. -/
theorem refTerm_eq (x : FVec Ideal S4x4096x4096 .f32) (q : FVec Ideal S4096x128 .f32) (a : IVec S4096 32)
    (b : FVec Ideal S4096 .f32) (h : VQ.InRange a) :
    refTerm x q a b = shapeCast S4x4096x4096
      (VQ.flatOut (shapeCast S16384x4096 x shapeCasts_S4x4096x4096_S16384x4096) q a b)
      shapeCasts_S16384x4096_S4x4096x4096 := by
  unfold refTerm
  rw [refFlat_eq _ _ _ _ h]

end Cert.ReferenceIdeal.RefValue

end
-- ==== Proof.KPayloads.lean ====
/-
  The kernel body's three pure payloads read at an index, at the ideal values (extended reals; a change of float
  format is the identity there).

  * the first payload is the zero splat [512,128]: it reads `0` everywhere;
  * the second is one chunk's contribution to the skinny product added to the running sum: at (r, k) it is
    `acc (r, k) + ∑ d, x (r, d) * g (d, k)`, the contraction running over the chunk's 512 columns;
  * the third is the second product in its two parts plus the bias row: at (r, e) it is
    `∑ k, q (r, k) * h (k, e) + ∑ k, (q (r, k) - q (r, k)) * h (k, e) + b (0, e)`, the contraction running over the
    128 codes.

  Each matrix product accumulates into a zero splat, so read at an output index it is the sum over the contraction
  index of the operands' products; the contraction index has one axis, and is re-indexed by its one coordinate. For that
  the two dimension-number records' operand indices are first read coordinate by coordinate: the left operand at
  (row of the output, contraction coordinate), the right operand at (contraction coordinate, column of the output).
-/
import proofs.«406552_j35390530520001_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KVal

open Cert.KernelIdeal Cert.KernelIdeal.Gen Idealize.ShloMosaic Idealize.ShloMosaic.ValueIdx

/-! ## The two contractions' operand indices, coordinate by coordinate

Both products contract the left operand's axis 1 with the right operand's axis 0 and have no batch axis: the left
operand is read at (output row, contraction coordinate), the right one at (contraction coordinate, output column). -/

/-- [512,512] × [512,128]: the left operand's row is the output's row. -/
theorem lhsA_0 (j : S512x128.Idx) (k : dot_S512x512_S512x128_S512x128_1_0_0_1_n_n.contr.Idx) :
    (dot_S512x512_S512x128_S512x128_1_0_0_1_n_n.lhsIdx j k 0 : ℕ) = j 0 := by
  simp [DotDims.lhsIdx, dot_S512x512_S512x128_S512x128_1_0_0_1_n_n]; rfl
/-- [512,512] × [512,128]: the left operand's column is the contraction coordinate. -/
theorem lhsA_1 (j : S512x128.Idx) (k : dot_S512x512_S512x128_S512x128_1_0_0_1_n_n.contr.Idx) :
    (dot_S512x512_S512x128_S512x128_1_0_0_1_n_n.lhsIdx j k 1 : ℕ) = k ⟨0, by decide⟩ := by
  simp [DotDims.lhsIdx, dot_S512x512_S512x128_S512x128_1_0_0_1_n_n]; rfl
/-- [512,512] × [512,128]: the right operand's row is the contraction coordinate. -/
theorem rhsA_0 (j : S512x128.Idx) (k : dot_S512x512_S512x128_S512x128_1_0_0_1_n_n.contr.Idx) :
    (dot_S512x512_S512x128_S512x128_1_0_0_1_n_n.rhsIdx j k 0 : ℕ) = k ⟨0, by decide⟩ := by
  simp [DotDims.rhsIdx, dot_S512x512_S512x128_S512x128_1_0_0_1_n_n]; rfl
/-- [512,512] × [512,128]: the right operand's column is the output's column. -/
theorem rhsA_1 (j : S512x128.Idx) (k : dot_S512x512_S512x128_S512x128_1_0_0_1_n_n.contr.Idx) :
    (dot_S512x512_S512x128_S512x128_1_0_0_1_n_n.rhsIdx j k 1 : ℕ) = j 1 := by
  simp [DotDims.rhsIdx, dot_S512x512_S512x128_S512x128_1_0_0_1_n_n]; rfl

/-- [512,128] × [128,512]: the left operand's row is the output's row. -/
theorem lhsB_0 (j : S512x512.Idx) (k : dot_S512x128_S128x512_S512x512_1_0_0_1_n_n.contr.Idx) :
    (dot_S512x128_S128x512_S512x512_1_0_0_1_n_n.lhsIdx j k 0 : ℕ) = j 0 := by
  simp [DotDims.lhsIdx, dot_S512x128_S128x512_S512x512_1_0_0_1_n_n]; rfl
/-- [512,128] × [128,512]: the left operand's column is the contraction coordinate. -/
theorem lhsB_1 (j : S512x512.Idx) (k : dot_S512x128_S128x512_S512x512_1_0_0_1_n_n.contr.Idx) :
    (dot_S512x128_S128x512_S512x512_1_0_0_1_n_n.lhsIdx j k 1 : ℕ) = k ⟨0, by decide⟩ := by
  simp [DotDims.lhsIdx, dot_S512x128_S128x512_S512x512_1_0_0_1_n_n]; rfl
/-- [512,128] × [128,512]: the right operand's row is the contraction coordinate. -/
theorem rhsB_0 (j : S512x512.Idx) (k : dot_S512x128_S128x512_S512x512_1_0_0_1_n_n.contr.Idx) :
    (dot_S512x128_S128x512_S512x512_1_0_0_1_n_n.rhsIdx j k 0 : ℕ) = k ⟨0, by decide⟩ := by
  simp [DotDims.rhsIdx, dot_S512x128_S128x512_S512x512_1_0_0_1_n_n]; rfl
/-- [512,128] × [128,512]: the right operand's column is the output's column. -/
theorem rhsB_1 (j : S512x512.Idx) (k : dot_S512x128_S128x512_S512x512_1_0_0_1_n_n.contr.Idx) :
    (dot_S512x128_S128x512_S512x512_1_0_0_1_n_n.rhsIdx j k 1 : ℕ) = j 1 := by
  simp [DotDims.rhsIdx, dot_S512x128_S128x512_S512x512_1_0_0_1_n_n]; rfl

/-! ## The two products into a zero accumulator, at an output index -/

/-- A [512,512] by [512,128] product into the zero splat, read at (r, k), is `∑ d, A (r, d) * B (d, k)`. -/
theorem matmulA_apply (A : FVec Ideal S512x512 .bf16) (B : FVec Ideal S512x128 .bf16) (r : Fin 512) (k : Fin 128) :
    FloatOps.matmul dot_S512x512_S512x128_S512x128_1_0_0_1_n_n none A B
        (constant (F := Ideal) S512x128 .f32 0x00000000#32) (ix2 r k)
      = ∑ d : Fin 512, A (ix2 r d) * B (ix2 d k) := by
  rw [Ideal.matmul_constant_zero_apply,
    ← Equiv.sum_comp (contrEquiv1 dot_S512x512_S512x128_S512x128_1_0_0_1_n_n 512 rfl rfl).symm]
  refine Finset.sum_congr rfl fun d _ => ?_
  have cv := contrEquiv1_symm_val dot_S512x512_S512x128_S512x128_1_0_0_1_n_n 512 rfl rfl d
  have hl : dot_S512x512_S512x128_S512x128_1_0_0_1_n_n.lhsIdx (ix2 r k)
      ((contrEquiv1 dot_S512x512_S512x128_S512x128_1_0_0_1_n_n 512 rfl rfl).symm d) = ix2 r d := by
    funext ax; apply Fin.ext
    match ax with
    | ⟨0, _⟩ => exact lhsA_0 _ _
    | ⟨1, _⟩ => exact (lhsA_1 _ _).trans cv
  have hr : dot_S512x512_S512x128_S512x128_1_0_0_1_n_n.rhsIdx (ix2 r k)
      ((contrEquiv1 dot_S512x512_S512x128_S512x128_1_0_0_1_n_n 512 rfl rfl).symm d) = ix2 d k := by
    funext ax; apply Fin.ext
    match ax with
    | ⟨0, _⟩ => exact (rhsA_0 _ _).trans cv
    | ⟨1, _⟩ => exact rhsA_1 _ _
  rw [hl, hr]

/-- A [512,128] by [128,512] product into the zero splat, read at (r, e), is `∑ k, A (r, k) * B (k, e)`. -/
theorem matmulB_apply (A : FVec Ideal S512x128 .bf16) (B : FVec Ideal S128x512 .bf16) (r : Fin 512) (e : Fin 512) :
    FloatOps.matmul dot_S512x128_S128x512_S512x512_1_0_0_1_n_n none A B
        (constant (F := Ideal) S512x512 .f32 0x00000000#32) (ix2 r e)
      = ∑ k : Fin 128, A (ix2 r k) * B (ix2 k e) := by
  rw [Ideal.matmul_constant_zero_apply,
    ← Equiv.sum_comp (contrEquiv1 dot_S512x128_S128x512_S512x512_1_0_0_1_n_n 128 rfl rfl).symm]
  refine Finset.sum_congr rfl fun k _ => ?_
  have cv := contrEquiv1_symm_val dot_S512x128_S128x512_S512x512_1_0_0_1_n_n 128 rfl rfl k
  have hl : dot_S512x128_S128x512_S512x512_1_0_0_1_n_n.lhsIdx (ix2 r e)
      ((contrEquiv1 dot_S512x128_S128x512_S512x512_1_0_0_1_n_n 128 rfl rfl).symm k) = ix2 r k := by
    funext ax; apply Fin.ext
    match ax with
    | ⟨0, _⟩ => exact lhsB_0 _ _
    | ⟨1, _⟩ => exact (lhsB_1 _ _).trans cv
  have hr : dot_S512x128_S128x512_S512x512_1_0_0_1_n_n.rhsIdx (ix2 r e)
      ((contrEquiv1 dot_S512x128_S128x512_S512x512_1_0_0_1_n_n 128 rfl rfl).symm k) = ix2 k e := by
    funext ax; apply Fin.ext
    match ax with
    | ⟨0, _⟩ => exact (rhsB_0 _ _).trans cv
    | ⟨1, _⟩ => exact rhsB_1 _ _
  rw [hl, hr]

/-! ## The three payloads at an index -/

/-- The first payload is the zero splat: it reads `0` everywhere (a cast to the same shape changes nothing). -/
theorem pay1_apply (j : S512x128.Idx) : k0_pay1 (F := Ideal) j = 0 := by
  unfold k0_pay1
  rw [shapeCast_self]
  exact Ideal.ofBits_zero_f32

/-- The second payload at (r, k): the running sum there plus the chunk's contribution `∑ d, x (r, d) * g (d, k)`
    (the casts are to the same shapes, the narrowing of `x` is the identity at the ideal values, and the product
    accumulates into the zero splat). -/
theorem pay2_apply (v14 : Vec Ideal S512x512 .f32) (v18 : Vec Ideal S512x128 .bf16) (v20 : Vec Ideal S512x128 .f32)
    (r : Fin 512) (k : Fin 128) :
    k0_pay2 (F := Ideal) v14 v18 v20 (ix2 r k) = v20 (ix2 r k) + ∑ d : Fin 512, v14 (ix2 r d) * v18 (ix2 d k) := by
  unfold k0_pay2
  simp only [shapeCast_self]
  refine (addf_apply _ _ _).trans ?_
  refine congrArg (v20 (ix2 r k) + ·) ?_
  exact matmulA_apply _ _ r k

/-- The third payload at (r, e): the product of `q` with `h`, plus the product of `q - q` with `h` (the low part,
    kept as it stands), plus the bias row at column `e` (a [1,512] row broadcast over the 512 rows). -/
theorem pay3_apply (v5 : Vec Ideal S512x128 .f32) (v14 : Vec Ideal S128x512 .bf16) (v17 : Vec Ideal S1x512 .f32)
    (r : Fin 512) (e : Fin 512) :
    k0_pay3 (F := Ideal) v5 v14 v17 (ix2 r e)
      = (∑ k : Fin 128, v5 (ix2 r k) * v14 (ix2 k e))
        + (∑ k : Fin 128, (v5 (ix2 r k) - v5 (ix2 r k)) * v14 (ix2 k e)) + v17 (ix2 (0 : Fin 1) e) := by
  unfold k0_pay3
  simp only [shapeCast_self]
  refine (addf_apply _ _ _).trans ?_
  refine congrArg₂ (· + ·) ((addf_apply _ _ _).trans (congrArg₂ (· + ·) ?_ ?_)) ?_
  · exact matmulB_apply _ _ r e
  · exact matmulB_apply _ _ r e
  · exact broadcastTo_1b_ab_apply _ _ r e

end Cert.KernelIdeal.KVal

end
-- ==== Proof.KBlocks.lean ====
/-
  The four input windows' blocks at a grid point, read off their arrays.

  The grid has 32 points. The first window cuts the flattened input [16384,4096] into 32 row blocks of [512,4096]:
  point `t` reads rows `512 * t` … `512 * t + 511`, every column. The other three windows hold a whole array each —
  the gathered code vectors [4096,128], the one-hot matrix [128,4096] and the bias row [1,4096] — at block index (0, 0)
  at every point, so their block is the array itself.

  A block's coordinate in its array is always (block index) × (block extent) + the coordinate inside the block; the
  block indices of the four windows are decided once over the 32 grid points.
-/
import proofs.«406552_j35390530520001_3_alg».proof.Proof.Gen.KernelIdeal.Frame
import Idealize.ShloMosaic.Lib.ValueIdx

noncomputable section

namespace Cert.KernelIdeal.KVal

open Cert.KernelIdeal Cert.KernelIdeal.Gen Idealize.ShloMosaic Idealize.ShloMosaic.TcCoe Idealize.ShloMosaic.ValueIdx

variable {F : FTy → Type} [FloatOps F] (m : (ℓ : Loc nD τ sig) → Buf (Elt F) ℓ)

/-! ## The blocks and the arrays, at their literal types -/

/-- The input's row block [512,4096] at grid point `t`. -/
abbrev xblk (c : Dev nD) (t : Fin cfg0.N) : Vec F S512x4096 .f32 := iblk m c 0 t
/-- The gathered code vectors' block [4096,128] at grid point `t`. -/
abbrev gblk (c : Dev nD) (t : Fin cfg0.N) : Vec F S4096x128 .bf16 := iblk m c 1 t
/-- The one-hot matrix's block [128,4096] at grid point `t`. -/
abbrev ohblk (c : Dev nD) (t : Fin cfg0.N) : Vec F S128x4096 .bf16 := iblk m c 2 t
/-- The bias row's block [1,4096] at grid point `t`. -/
abbrev bblk (c : Dev nD) (t : Fin cfg0.N) : Vec F S1x4096 .f32 := iblk m c 3 t
/-- The flattened input [16384,4096] as the region finds it. -/
abbrev xarr (c : Dev nD) : Vec F S16384x4096 .f32 := V m c main_v0
/-- The gathered code vectors [4096,128] as the region finds them. -/
abbrev garr (c : Dev nD) : Vec F S4096x128 .bf16 := V m c main_v3
/-- The one-hot matrix [128,4096] as the region finds it. -/
abbrev oharr (c : Dev nD) : Vec F S128x4096 .bf16 := V m c main_v10
/-- The bias row [1,4096] as the region finds it. -/
abbrev barr (c : Dev nD) : Vec F S1x4096 .f32 := V m c main_v11

/-! ## The block indices over the grid -/

/-- At grid point `t` the first window is at block (t, 0); the other three stay at block (0, 0). -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## Each block read off its array -/

/-- The input's block at point `t`, read at (r, j), is the input at row `512 * t + r`, column `j` (the row is below
    16384 since `t` is below 32; it is written modulo 16384 so that the statement carries no bound). -/
theorem xblk_apply (c : Dev nD) (t : Fin cfg0.N) (r : Fin 512) (j : Fin 4096) :
    xblk m c t (ix2 r j) = xarr m c (ix2 ⟨(512 * t.val + r.val) % 16384, Nat.mod_lt _ (by norm_num)⟩ j) := by
  obtain ⟨e0, e1, -⟩ := blockIndex t
  have ht : t.val < 32 := (show t.val < grid0.N from t.isLt).trans_eq N_0
  show V m c main_v0 (((cfg0.win 0).blk t).view.emb (ix2 r j)) = V m c main_v0 _
  refine congrArg (V m c main_v0) ?_
  funext a; apply Fin.ext
  match a with
  | ⟨0, _⟩ =>
    show win0_0.index t (0 : Fin 2) * 512 + 1 * r.val = (512 * t.val + r.val) % 16384
    have hr : r.val < 512 := r.isLt
    omega
  | ⟨1, _⟩ =>
    show win0_0.index t (1 : Fin 2) * 4096 + 1 * j.val = j.val
    omega

/-- The gathered code vectors' block is the whole array, at every point. -/
theorem gblk_eq (c : Dev nD) (t : Fin cfg0.N) : gblk m c t = garr m c := by
  obtain ⟨-, -, e0, e1, -⟩ := blockIndex t
  funext y
  show V m c main_v3 (((cfg0.win 1).blk t).view.emb y) = V m c main_v3 y
  refine congrArg (V m c main_v3) ?_
  funext a; apply Fin.ext
  match a with
  | ⟨0, _⟩ => show win0_1.index t (0 : Fin 2) * 4096 + 1 * (y 0).val = (y 0).val; omega
  | ⟨1, _⟩ => show win0_1.index t (1 : Fin 2) * 128 + 1 * (y 1).val = (y 1).val; omega

/-- The one-hot matrix's block is the whole array, at every point. -/
theorem ohblk_eq (c : Dev nD) (t : Fin cfg0.N) : ohblk m c t = oharr m c := by
  obtain ⟨-, -, -, -, e0, e1, -⟩ := blockIndex t
  funext y
  show V m c main_v10 (((cfg0.win 2).blk t).view.emb y) = V m c main_v10 y
  refine congrArg (V m c main_v10) ?_
  funext a; apply Fin.ext
  match a with
  | ⟨0, _⟩ => show win0_2.index t (0 : Fin 2) * 128 + 1 * (y 0).val = (y 0).val; omega
  | ⟨1, _⟩ => show win0_2.index t (1 : Fin 2) * 4096 + 1 * (y 1).val = (y 1).val; omega

/-- The bias row's block is the whole array, at every point. -/
theorem bblk_eq (c : Dev nD) (t : Fin cfg0.N) : bblk m c t = barr m c := by
  obtain ⟨-, -, -, -, -, -, e0, e1⟩ := blockIndex t
  funext y
  show V m c main_v11 (((cfg0.win 3).blk t).view.emb y) = V m c main_v11 y
  refine congrArg (V m c main_v11) ?_
  funext a; apply Fin.ext
  match a with
  | ⟨0, _⟩ => show win0_3.index t (0 : Fin 2) * 1 + 1 * (y 0).val = (y 0).val; omega
  | ⟨1, _⟩ => show win0_3.index t (1 : Fin 2) * 4096 + 1 * (y 1).val = (y 1).val; omega

end Cert.KernelIdeal.KVal

end
-- ==== Proof.KWindows.lean ====
/-
  The arrays the region finds when it is entered, read at an index.

  Before its one region the program reshapes the batch `x : [4, 4096, 4096]` to `[16384, 4096]`, cuts the codes
  `a : [4096]` off into `[0, 127]`, gathers the table's rows `q[a j, ·]` feature by feature (the same row gather as
  the reference's: a negative row number counted from the end, a row outside the table filled, the rows narrowed to the
  16-bit format), builds the indicator matrix `[128, 4096]` of "position `k` is feature `i`'s code" (an iota
  down the rows compared with the codes along the columns, the bit converted to a float), and reshapes the bias to one
  row. At the ideal instance a change of format is the identity and a bit converts to 0 or 1.

  For codes in range, `0 ≤ a j < 128` read signed, none of the guards acts: the cut leaves every code alone,
  no row number is negative, every row is inside the table, and a position equals a code as 32-bit words exactly when
  it does as a number. The four arrays are then the flattened batch, the common specification's gathered table and
  indicator matrix, and the bias.

  Each array is first written as one term of the arguments (the host operations composed), then that term is read at an
  index over variables.
-/
import proofs.«406552_j35390530520001_3_alg».proof.Proof.Gen.KernelIdeal.Frame
import proofs.«406552_j35390530520001_3_alg».proof.Proof.Spec
import proofs.«406552_j35390530520001_3_alg».proof.Proof.LibRowGather
import Idealize.ShloMosaic.Lib.ValueIdx
import Idealize.ShloMosaic.Lib.ValueLayout
import Idealize.ShloMosaic.Lib.Pipeline.Value
import Idealize.ShloMosaic.Lib.StableHlo.Run
import Idealize.ShloMosaic.Lib.Affine
import Idealize.ShloMosaic.PureOps.Reduce

set_option maxRecDepth 16384

noncomputable section

namespace Cert.KernelIdeal.KVal

open Cert.KernelIdeal Cert.KernelIdeal.Gen Idealize.ShloMosaic Idealize.ShloMosaic.TcCoe Idealize.ShloMosaic.ValueIdx
open Idealize.ShloMosaic.StableHlo

/-! ## The host prefix as terms of the arguments -/

/-- The codes cut off into `[0, 127]`: `min 127 (max 0 a)`, entry by entry, on words read signed. -/
def clipT (a : IVec S4096 32) : IVec S4096 32 :=
  minsi (broadcastInDim S4096 ![] bcast_S_S4096 (constantI S_ 32 127#32))
    (maxsi (broadcastInDim S4096 ![] bcast_S_S4096 (constantI S_ 32 0#32)) a)

/-- The row numbers of the table gather as a column: a negative row number counted from the end (`a + 4096`). -/
def idxT (a1 : IVec S4096 32) : IVec S4096x1 32 :=
  broadcastInDim S4096x1 ![0] bcast_S4096_S4096x1_0
    (select (cmpi .slt a1 (broadcastInDim S4096 ![] bcast_S_S4096 (constantI S_ 32 0#32)))
      (addi a1 (broadcastInDim S4096 ![] bcast_S_S4096 (constantI S_ 32 4096#32))) a1)

/-- Which rows of the gather are inside the table: `0 ≤ row ≤ 4095`, the conjunction taken along the unit axis. -/
def maskT (a1 : IVec S4096 32) : IVec S4096 1 :=
  Host.reduce IntOp.andi
    (andi (cmpi .sge (idxT a1) (broadcastInDim S4096x1 ![] bcast_S_S4096x1 (constantI S_ 32 0#32)))
      (cmpi .sle (idxT a1) (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The table's rows gathered feature by feature, a row outside the table filled with the fill value. -/
def takeT (q : FVec Ideal S4096x128 .f32) (a1 : IVec S4096 32) : FVec Ideal S4096x128 .f32 :=
  select (broadcastInDim S4096x128 ![0] bcast_S4096_S4096x128_0 (maskT a1))
    (Host.gather gather_S4096x128_S4096x1_S4096x128_1_0_n_n_0_1_1128 q (idxT a1))
    (broadcastInDim S4096x128 ![] bcast_S_S4096x128 (constant (F := Ideal) S_ .f32 0x7FC00000#32))

/-- The gathered rows in the narrow format. -/
def gT (q : FVec Ideal S4096x128 .f32) (a : IVec S4096 32) : FVec Ideal S4096x128 .bf16 :=
  truncf .bf16 (takeT q (clipT a)) bitsLt_bf16_f32

/-- The indicator matrix: entry `(k, i)` compares the position `k` with feature `i`'s code and converts the bit. -/
def ohT (a : IVec S4096 32) : FVec Ideal S128x4096 .bf16 :=
  uitofp .bf16 (cmpi .eq
    (broadcastInDim S128x4096 ![0, 1] bcast_S128x1_S128x4096_0_1
      (broadcastInDim S128x1 ![0] bcast_S128_S128x1_0 (iotaInDim S128 32 0)))
    (broadcastInDim S128x4096 ![0, 1] bcast_S1x4096_S128x4096_0_1
      (broadcastInDim S1x4096 ![1] bcast_S4096_S1x4096_1 (clipT a))))

/-! ## Words read signed -/

/-- A word that reads, signed, as a number in `[0, 128)` is left alone by the cut into `[0, 127]`. -/
theorem clip_word (w : BitVec 32) (h0 : 0 ≤ w.toInt) (h1 : w.toInt < 128) :
    IntOp.minsi 127#32 (IntOp.maxsi 0#32 w) = w := by
  have e0 : (0#32 : BitVec 32).toInt = 0 := by decide
  have e127 : (127#32 : BitVec 32).toInt = 127 := by decide
  have hm : IntOp.maxsi 0#32 w = w := by
    unfold IntOp.maxsi
    rw [if_neg]
    rw [BitVec.slt_iff_toInt_lt]
    omega
  rw [hm]
  unfold IntOp.minsi
  rw [if_neg]
  rw [BitVec.slt_iff_toInt_lt]
  omega

/-- A word that reads, signed, as a non-negative number is the word of that number. -/
theorem word_of_nonneg (w : BitVec 32) (h0 : 0 ≤ w.toInt) : w = BitVec.ofNat 32 w.toInt.toNat := by
  apply BitVec.eq_of_toNat_eq
  have hw := w.isLt
  have ht := BitVec.toInt_eq_toNat_cond w
  rw [BitVec.toNat_ofNat]
  split at ht <;> omega

/-- A conjunction, along any axes, of bits that are all one is one. -/
theorem reduce_ones {s t u : Shape} {axes : List (Fin s.rank)} (x : IVec s 1) (init : IVec u 1) (h : s.ReducesTo axes t)
    (hu : 0 < u.numel) (hx : ∀ i, x i = 1#1) (hi : init (Shape.Idx.first hu) = 1#1) (j : t.Idx) :
    Host.reduce IntOp.andi x init h hu j = 1#1 := by
  rw [Host.reduce_eq_foldl, hi]
  generalize (List.filter _ _) = l
  induction l with
  | nil => rfl
  | cons i l ih => rw [List.foldl_cons, hx i]; exact ih

/-! ## The terms read at an index, for codes in range -/

/-- Codes in range are their own cut. -/
theorem clipT_eq {a : IVec S4096 32} (h : VQ.InRange a) : clipT a = a := by
  funext i
  obtain ⟨j, rfl⟩ : ∃ j : Fin 4096, i = ix1 j := ⟨i 0, eq_ix1 i⟩
  show IntOp.minsi 127#32 (IntOp.maxsi 0#32 (a (ix1 j))) = a (ix1 j)
  exact clip_word _ (h j).1 (h j).2

/-- For codes in range the gather's row number is the code: nothing is counted from the end. -/
theorem idxT_apply {a1 : IVec S4096 32} (h : VQ.InRange a1) (k : Fin 4096) (c : Fin 1) : idxT a1 (ix2 k c) = a1 (ix1 k) := by
  unfold idxT
  rw [broadcastInDim_apply _ _ _ (ix2 k c) (ix1 k) (fun b => match b with | ⟨0, _⟩ => rfl)]
  show Scalar.select (IntOp.cmpi .slt (a1 (ix1 k)) 0#32) (IntOp.addi (a1 (ix1 k)) 4096#32) (a1 (ix1 k)) = _
  have e0 : (0#32 : BitVec 32).toInt = 0 := by decide
  have hz : IntOp.cmpi .slt (a1 (ix1 k)) 0#32 = 0#1 :=
    eq_zero_of_ne_one fun e => by have := IntOp.cmpi_slt.mp e; have := (h k).1; omega
  rw [hz, select_zero]

/-- For codes in range every row of the gather is inside the table. -/
theorem maskT_eq_one {a1 : IVec S4096 32} (h : VQ.InRange a1) (j : S4096.Idx) : maskT a1 j = 1#1 := by
  unfold maskT
  refine reduce_ones _ _ _ _ (fun y => ?_) rfl j
  obtain ⟨k, c, rfl⟩ : ∃ (k : Fin 4096) (c : Fin 1), y = ix2 k c := ⟨y 0, y 1, eq_ix2 y⟩
  show IntOp.andi (IntOp.cmpi .sge (idxT a1 (ix2 k c)) 0#32) (IntOp.cmpi .sle (idxT a1 (ix2 k c)) 4095#32) = 1#1
  have e0 : (0#32 : BitVec 32).toInt = 0 := by decide
  have e1 : (4095#32 : BitVec 32).toInt = 4095 := by decide
  rw [idxT_apply h, IntOp.andi_eq_one, IntOp.cmpi_sge, IntOp.cmpi_sle]
  have := h k
  omega

/-- THE GATHERED TABLE: for codes in range, entry `(j, k)` is the table's entry `(a j, k)`. -/
theorem takeT_apply (q : FVec Ideal S4096x128 .f32) {a1 : IVec S4096 32} (h : VQ.InRange a1) (y : S4096x128.Idx) :
    takeT q a1 y = VQ.gathered q a1 y := by
  unfold takeT
  rw [select_apply]
  have hm : broadcastInDim S4096x128 ![0] bcast_S4096_S4096x128_0 (maskT a1) y = 1#1 := maskT_eq_one h _
  rw [hm, select_one]
  obtain ⟨k, c, rfl⟩ : ∃ (k : Fin 4096) (c : Fin 128), y = ix2 k c := ⟨y 0, y 1, eq_ix2 y⟩
  refine (RowGather.gather_rows_apply (N := 4096) (C := 128) (n := 4096) (by decide)
    gather_S4096x128_S4096x1_S4096x128_1_0_n_n_0_1_1128_wf q (idxT a1) k c).trans ?_
  refine congrArg q (funext fun b => ?_)
  match b with
  | ⟨0, _⟩ =>
    refine Fin.ext ?_
    show min (idxT a1 (ix2 k (0 : Fin 1))).toInt.toNat (4096 - 1) = min (a1 (ix1 k)).toInt.toNat (4096 - 1)
    rw [idxT_apply h]
  | ⟨1, _⟩ => rfl

/-- THE INDICATOR MATRIX: for codes in range, entry `(k, i)` is one where `k` is feature `i`'s code and zero elsewhere. -/
theorem ohT_apply {a : IVec S4096 32} (h : VQ.InRange a) (y : S128x4096.Idx) : ohT a y = VQ.onehot a y := by
  unfold ohT
  rw [clipT_eq h]
  obtain ⟨k, i, rfl⟩ : ∃ (k : Fin 128) (i : Fin 4096), y = ix2 k i := ⟨y 0, y 1, eq_ix2 y⟩
  have hL : broadcastInDim S128x4096 ![0, 1] bcast_S128x1_S128x4096_0_1
      (broadcastInDim S128x1 ![0] bcast_S128_S128x1_0 (iotaInDim S128 32 0)) (ix2 k i) = BitVec.ofNat 32 k.val := by
    rw [broadcastInDim_apply _ _ _ (ix2 k i) (ix2 k (0 : Fin 1)) (fun b => match b with | ⟨0, _⟩ => rfl | ⟨1, _⟩ => rfl),
      broadcastInDim_apply _ _ _ (ix2 k (0 : Fin 1)) (ix1 k) (fun b => match b with | ⟨0, _⟩ => rfl)]
    rfl
  have hR : broadcastInDim S128x4096 ![0, 1] bcast_S1x4096_S128x4096_0_1
      (broadcastInDim S1x4096 ![1] bcast_S4096_S1x4096_1 a) (ix2 k i) = a (ix1 i) := by
    rw [broadcastInDim_apply _ _ _ (ix2 k i) (ix2 (0 : Fin 1) i) (fun b => match b with | ⟨0, _⟩ => rfl | ⟨1, _⟩ => rfl),
      broadcastInDim_apply _ _ _ (ix2 (0 : Fin 1) i) (ix1 i) (fun b => match b with | ⟨0, _⟩ => rfl)]
  show (((IntOp.cmpi .eq (broadcastInDim S128x4096 ![0, 1] bcast_S128x1_S128x4096_0_1
      (broadcastInDim S128x1 ![0] bcast_S128_S128x1_0 (iotaInDim S128 32 0)) (ix2 k i))
      (broadcastInDim S128x4096 ![0, 1] bcast_S1x4096_S128x4096_0_1
      (broadcastInDim S1x4096 ![1] bcast_S4096_S1x4096_1 a) (ix2 k i))).toNat : ℝ) : EReal)
    = if k.val = (a (ix1 i)).toInt.toNat then 1 else 0
  rw [hL, hR]
  have hr := h i
  have hw := word_of_nonneg _ hr.1
  have hk := k.isLt
  by_cases hc : k.val = (a (ix1 i)).toInt.toNat
  · rw [if_pos hc]
    have e : IntOp.cmpi .eq (BitVec.ofNat 32 k.val) (a (ix1 i)) = 1#1 :=
      IntOp.cmpi_eq.mpr (by rw [hc]; exact hw.symm)
    rw [e]
    simp
  · rw [if_neg hc]
    have e : IntOp.cmpi .eq (BitVec.ofNat 32 k.val) (a (ix1 i)) = 0#1 :=
      eq_zero_of_ne_one fun e1 => hc (by
        have e2 := congrArg BitVec.toNat (IntOp.cmpi_eq.mp e1)
        rw [hw, BitVec.toNat_ofNat, BitVec.toNat_ofNat] at e2
        omega)
    rw [e]
    simp

/-! ## The arrays as terms of the arguments -/

variable (m : (ℓ : Loc nD τ sig) → Buf (Elt Ideal) ℓ)

/-- Unfolds, at one buffer, the contents after the host operations before the region into the composed operations. -/
local macro "open_V" : tactic => `(tactic| (
  dsimp only [Gen.V, Gen.V0]
  simp only [Gen.hostOps0, Gen.hostOps0_1, Gen.hostOps0_2, Gen.hostOps0_3, List.flatten_cons, List.flatten_nil,
    List.append_nil, List.cons_append, List.nil_append]
  after_results_simp
  try simp only [StableHlo.TRef.ofBuf, StableHlo.TRef.toBuf, cast_eq]))

/-- The flattened batch is the reshape of the first argument. -/
theorem V_v0 (c : Dev nD) : (V m c main_v0 : S16384x4096.Idx → EReal)
    = shapeCast S16384x4096 (m ((c : Thread nD τ).loc main_arg0)) shapeCasts_S4x4096x4096_S16384x4096 := by
  open_V; rfl

/-- The bias row is the reshape of the last argument. -/
theorem V_v11 (c : Dev nD) : (V m c main_v11 : S1x4096.Idx → EReal)
    = shapeCast S1x4096 (m ((c : Thread nD τ).loc main_arg3)) shapeCasts_S4096_S1x4096 := by
  open_V; rfl

/-- The gathered table is the gather term of the table and the codes. -/
theorem V_v3 (c : Dev nD) : (V m c main_v3 : S4096x128.Idx → EReal)
    = gT (m ((c : Thread nD τ).loc main_arg1)) (m ((c : Thread nD τ).loc main_arg2)) := by
  open_V; rfl

/-- The indicator matrix is the indicator term of the codes. -/
theorem V_v10 (c : Dev nD) : (V m c main_v10 : S128x4096.Idx → EReal) = ohT (m ((c : Thread nD τ).loc main_arg2)) := by
  open_V; rfl

/-! ## The four arrays -/

/-- Window 0's array: the batch flattened to `[16384, 4096]`. -/
theorem win_x (c : Dev nD) : (V m c main_v0 : S16384x4096.Idx → EReal)
    = shapeCast S16384x4096 (m ((c : Thread nD τ).loc main_arg0)) shapeCasts_S4x4096x4096_S16384x4096 :=
  V_v0 m c

/-- Window 1's array: for codes in range, the table's rows laid out feature by feature. -/
theorem win_g (c : Dev nD) (h : VQ.InRange (m ((c : Thread nD τ).loc main_arg2))) :
    (V m c main_v3 : S4096x128.Idx → EReal)
      = VQ.gathered (m ((c : Thread nD τ).loc main_arg1)) (m ((c : Thread nD τ).loc main_arg2)) := by
  rw [V_v3]
  funext y
  show takeT (m ((c : Thread nD τ).loc main_arg1)) (clipT (m ((c : Thread nD τ).loc main_arg2))) y = _
  rw [clipT_eq h]
  exact takeT_apply _ h y

/-- Window 2's array: for codes in range, the indicator of "entry `k` is feature `i`'s code". -/
theorem win_oh (c : Dev nD) (h : VQ.InRange (m ((c : Thread nD τ).loc main_arg2))) :
    (V m c main_v10 : S128x4096.Idx → EReal) = VQ.onehot (m ((c : Thread nD τ).loc main_arg2)) := by
  rw [V_v10]
  exact funext (ohT_apply h)

/-- Window 3's array: the bias as one row, entry `(0, i)` the bias of feature `i`. -/
theorem win_b (c : Dev nD) : (V m c main_v11 : S1x4096.Idx → EReal)
    = fun y => m ((c : Thread nD τ).loc main_arg3) (ix1 (y 1)) := by
  rw [V_v11]
  funext y
  obtain ⟨u, i, rfl⟩ : ∃ (u : Fin 1) (i : Fin 4096), y = ix2 u i := ⟨y 0, y 1, eq_ix2 y⟩
  exact shapeCast_a_1a_apply (m ((c : Thread nD τ).loc main_arg3)) shapeCasts_S4096_S1x4096 u i

/-! ## Which array each window stages -/

theorem arr0 : Pipeline.arrRef spec0 0 = main_v0 := rfl
theorem arr1 : Pipeline.arrRef spec0 1 = main_v3 := rfl
theorem arr2 : Pipeline.arrRef spec0 2 = main_v10 := rfl
theorem arr3 : Pipeline.arrRef spec0 3 = main_v11 := rfl
theorem arr4 : Pipeline.arrRef spec0 4 = main_v12 := rfl

end Cert.KernelIdeal.KVal

end
-- ==== Proof.Algebra.lean ====
/-
  Sums over the extended reals that the quantised layer's two matrix products come down to: a sum against an
  indicator selects one term; the sum of real numbers' products is a real number; a sum over a range splits into
  chunks of 512; a sum over the 4096 features is a sum over a range of numbers.
-/
import Mathlib.Data.EReal.Operations
import Mathlib.Algebra.BigOperators.Fin
import Mathlib.Algebra.BigOperators.Group.Finset.Basic

namespace VQ

/-- A sum against the indicator of "k is n" is the n-th term: every other term is a product with zero. -/
theorem sum_mul_onehot (c : Fin 128 → EReal) (n : ℕ) (h : n < 128) :
    (∑ k : Fin 128, c k * (if k.val = n then (1 : EReal) else 0)) = c ⟨n, h⟩ := by
  rw [Finset.sum_eq_single (⟨n, h⟩ : Fin 128)]
  · rw [if_pos rfl, mul_one]
  · intro k _ hk
    have hne : k.val ≠ n := fun e => hk (Fin.ext e)
    rw [if_neg hne, mul_zero]
  · intro hn
    exact absurd (Finset.mem_univ _) hn

/-- The selection with a remainder part: each c k is a real number, so c k - c k = 0 (on the extended reals ⊤ - ⊤ is
    not 0: this is where finiteness is used), the second sum vanishes and the first selects the n-th term. -/
theorem hi_lo_select (c : Fin 128 → EReal) (hc : ∀ k, ∃ r : ℝ, c k = (r : EReal)) (n : ℕ) (h : n < 128) (β : EReal) :
    (∑ k : Fin 128, c k * (if k.val = n then (1 : EReal) else 0))
      + (∑ k : Fin 128, (c k - c k) * (if k.val = n then (1 : EReal) else 0)) + β = c ⟨n, h⟩ + β := by
  have hz : (∑ k : Fin 128, (c k - c k) * (if k.val = n then (1 : EReal) else 0)) = 0 := by
    refine Finset.sum_eq_zero fun k _ => ?_
    obtain ⟨r, hr⟩ := hc k
    rw [hr, ← EReal.coe_sub, sub_self, EReal.coe_zero, zero_mul]
  rw [hz, add_zero, sum_mul_onehot c n h]

/-- A finite sum of products of real numbers, taken in the extended reals, is a real number: the sum of the products. -/
theorem finite_sum_mul {N : ℕ} (u v : Fin N → EReal) (hu : ∀ j, ∃ r : ℝ, u j = (r : EReal))
    (hv : ∀ j, ∃ r : ℝ, v j = (r : EReal)) : ∃ r : ℝ, (∑ j : Fin N, u j * v j) = (r : EReal) := by
  choose ru hru using hu
  choose rv hrv using hv
  have key : ∀ s : Finset (Fin N), (∑ j ∈ s, u j * v j) = ((∑ j ∈ s, ru j * rv j : ℝ) : EReal) := by
    intro s
    induction s using Finset.induction_on with
    | empty => rw [Finset.sum_empty, Finset.sum_empty, EReal.coe_zero]
    | insert a s ha ih =>
      rw [Finset.sum_insert ha, Finset.sum_insert ha, ih, hru, hrv, EReal.coe_add, EReal.coe_mul]
  exact ⟨_, key Finset.univ⟩

/-- The first 512·(n+1) terms are the first 512·n terms and then one chunk of 512. -/
theorem sum_range_chunk (f : ℕ → EReal) (n : ℕ) :
    (∑ j ∈ Finset.range (512 * (n + 1)), f j)
      = (∑ j ∈ Finset.range (512 * n), f j) + ∑ d : Fin 512, f (512 * n + d.val) := by
  have e : 512 * (n + 1) = 512 * n + 512 := by omega
  rw [e, Finset.sum_range_add, Finset.sum_range (fun x => f (512 * n + x))]

/-- A sum over the 4096 indices as a sum over the numbers below 4096. -/
theorem sum_fin_eq_range (g : Fin 4096 → EReal) :
    (∑ j : Fin 4096, g j) = ∑ j ∈ Finset.range 4096, (if h : j < 4096 then g ⟨j, h⟩ else 0) := by
  rw [Finset.sum_range (fun j => if h : j < 4096 then g ⟨j, h⟩ else 0)]
  refine Finset.sum_congr rfl fun j _ => ?_
  rw [dif_pos j.isLt]

end VQ
-- ==== Proof.KBody.lean ====
/-
  The kernel body's value at one grid point.

  At grid point `t` the body sees a block of 512 rows of the flattened batch and the whole gathered table, one-hot
  matrix and bias row. A first loop over eight column chunks accumulates the skinny product `qm = x · g` ([512, 128]) in a
  scratch buffer, starting from zero; a second loop over eight column chunks stores `qm · onehot + (qm − qm) · onehot + bias`
  chunk by chunk. Here the pieces the two loops store are read back as one function of the block's index, and that
  function is evaluated on the extended reals: the accumulated chunks are the whole sum over the 4096 features, the one-hot
  product picks one column of `qm`, and the low part vanishes because `qm` is a real number wherever the inputs are.
-/
import proofs.«406552_j35390530520001_3_alg».proof.Proof.Gen.KernelIdeal.Frame
import proofs.«406552_j35390530520001_3_alg».proof.Proof.Spec
import proofs.«406552_j35390530520001_3_alg».proof.Proof.KPayloads
import proofs.«406552_j35390530520001_3_alg».proof.Proof.KBlocks
import proofs.«406552_j35390530520001_3_alg».proof.Proof.KWindows
import proofs.«406552_j35390530520001_3_alg».proof.Proof.Algebra
import Idealize.ShloMosaic.Lib.Pipeline.Value
import Idealize.ShloMosaic.Lib.Pipeline.FrameBody

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
/-! ## The chunks the two loops read

Trip `k` of the first loop reads columns `512 k … 512 k + 511` of the block of `x` and the same rows of the
gathered table; trip `k` of the second loop reads the same columns of the one-hot matrix and of the bias row. -/

def xs (x0 : Vec F S512x4096 .f32) (k : Fin k0_t1_loop.trips) : Vec F S512x512 .f32 :=
  View.ld x0 (Rect.unit (s := S512x4096) (k0_off1 k) S512x512.size (k0_off1_inb k))
def gs (x1 : Vec F S4096x128 .bf16) (k : Fin k0_t1_loop.trips) : Vec F S512x128 .bf16 :=
  View.ld x1 (Rect.unit (s := S4096x128) (k0_off2 k) S512x128.size (k0_off2_inb k))
def ohs (x2 : Vec F S128x4096 .bf16) (k : Fin k0_t2_loop.trips) : Vec F S128x512 .bf16 :=
  View.ld x2 (Rect.unit (s := S128x4096) (k0_off3 k) S128x512.size (k0_off3_inb k))
def bs (x3 : Vec F S1x4096 .f32) (k : Fin k0_t2_loop.trips) : Vec F S1x512 .f32 :=
  View.ld x3 (Rect.unit (s := S1x4096) (k0_off4 k) S1x512.size (k0_off4_inb k))

/-- The accumulator after `n` trips of the first loop: zero, then one chunk's product added per trip. -/
def acc (x0 : Vec F S512x4096 .f32) (x1 : Vec F S4096x128 .bf16) : ℕ → Vec F S512x128 .f32
  | 0 => k0_pay1
  | n + 1 => if h : n < k0_t1_loop.trips then k0_pay2 (xs x0 ⟨n, h⟩) (gs x1 ⟨n, h⟩) (acc x0 x1 n) else acc x0 x1 n

theorem zero2 : (![0, 0] : Fin 2 → ℕ) = fun _ => 0 := by
  funext a; match a with | ⟨0, _⟩ => rfl | ⟨1, _⟩ => rfl

/-- One trip of the first loop stores, over the whole accumulator, the chunk's product added to what it finds there. -/
theorem tripL1_eq (𝒱 : Variants) (c : Dev nD) (bd : Option 𝒱.V) (i : grid0.Coords) (arg1 : Memref sig .tc .vmem S512x4096 .f32) (harg1 : arg1.IsWhole) (arg2 : Memref sig .tc .vmem S4096x128 .bf16) (harg2 : arg2.IsWhole) (arg3 : Memref sig .tc .vmem S128x4096 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x128 .f32) (harg6 : arg6.IsWhole) (x0 : Vec F S512x4096 .f32) (x1 : Vec F S4096x128 .bf16) (k : Fin k0_t1_loop.trips) (f : BufTy.Contents (Elt F) arg6.view.ty) :
    tripL_k0_t1 (F := F) 𝒱 c bd i arg1 harg1 arg2 harg2 arg3 harg3 arg4 harg4 arg5 harg5 arg6 harg6 (harg1.unread x0) (harg2.unread x1) k f
      = [⟨Rect.unit (s := S512x128) ![0, 0] S512x128.size inb_S512x128_S512x128_0_0,
          k0_pay2 (xs x0 k) (gs x1 k) (arg6.view.read (Elt F) f)⟩] := by
  unfold tripL_k0_t1 trip_k0_t1
  dsimp only
  simp only [View.readAt_eq_ld, harg1.read_unread, harg2.read_unread, View.ld_unit_zero (S := S512x128) zero2]
  rfl

/-- One trip of the second loop stores one column chunk of the output block. -/
theorem tripL2_eq (𝒱 : Variants) (c : Dev nD) (bd : Option 𝒱.V) (i : grid0.Coords) (arg1 : Memref sig .tc .vmem S512x4096 .f32) (harg1 : arg1.IsWhole) (arg2 : Memref sig .tc .vmem S4096x128 .bf16) (harg2 : arg2.IsWhole) (arg3 : Memref sig .tc .vmem S128x4096 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x128 .f32) (harg6 : arg6.IsWhole) (v5 : Vec F S512x128 .f32) (x2 : Vec F S128x4096 .bf16) (x3 : Vec F S1x4096 .f32) (k : Fin k0_t2_loop.trips) :
    tripL_k0_t2 (F := F) 𝒱 c bd i arg1 harg1 arg2 harg2 arg3 harg3 arg4 harg4 arg5 harg5 arg6 harg6 v5 (harg3.unread x2) (harg4.unread x3) k
      = [⟨Rect.unit (s := S512x4096) (k0_off5 k) S512x512.size (k0_off5_inb k), k0_pay3 v5 (ohs x2 k) (bs x3 k)⟩] := by
  unfold tripL_k0_t2 trip_k0_t2
  dsimp only
  simp only [View.readAt_eq_ld, harg3.read_unread, harg4.read_unread]
  rfl

/-- What the scratch holds when the first loop is entered: zeros, written over whatever was there. -/
abbrev G0 (arg6 : Memref sig .tc .vmem S512x128 .f32) : BufTy.Contents (Elt F) arg6.view.ty :=
  arg6.view.writes (Elt F) arg6.view.junk [⟨Rect.unit (s := S512x128) ![0, 0] S512x128.size inb_S512x128_S512x128_0_0, k0_pay1⟩]

/-- A store over the whole buffer, last, is what the buffer reads. -/
theorem read_writes_whole {arg6 : Memref sig .tc .vmem S512x128 .f32} (f : BufTy.Contents (Elt F) arg6.view.ty) (w : Vec F S512x128 .f32) :
    arg6.view.read (Elt F) (arg6.view.writes (Elt F) f [⟨Rect.unit (s := S512x128) ![0, 0] S512x128.size inb_S512x128_S512x128_0_0, w⟩]) = w := by
  rw [View.read_writes_eq_canon _ _ _ (fun y => ⟨_, List.mem_singleton_self _, View.mem_set_unit_zero zero2 inb_S512x128_S512x128_0_0 y⟩),
    View.canon_unit_zero zero2]

/-- After `n` trips the scratch reads the accumulator `acc n`. -/
theorem acc_read (𝒱 : Variants) (c : Dev nD) (bd : Option 𝒱.V) (i : grid0.Coords) (arg1 : Memref sig .tc .vmem S512x4096 .f32) (harg1 : arg1.IsWhole) (arg2 : Memref sig .tc .vmem S4096x128 .bf16) (harg2 : arg2.IsWhole) (arg3 : Memref sig .tc .vmem S128x4096 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x128 .f32) (harg6 : arg6.IsWhole) (x0 : Vec F S512x4096 .f32) (x1 : Vec F S4096x128 .bf16) :
    ∀ n : ℕ, n ≤ k0_t1_loop.trips →
      arg6.view.read (Elt F) (arg6.view.writes (Elt F) (G0 (F := F) arg6)
        (pb_k0_t1 (F := F) 𝒱 c bd i arg1 harg1 arg2 harg2 arg3 harg3 arg4 harg4 arg5 harg5 arg6 harg6 (harg1.unread x0) (harg2.unread x1) (G0 (F := F) arg6) n)) = acc x0 x1 n
  | 0, _ => by
    rw [pb_k0_t1.eq_1, View.writes_nil]
    exact read_writes_whole _ _
  | n + 1, hn => by
    have h : n < k0_t1_loop.trips := hn
    have ih := acc_read 𝒱 c bd i arg1 harg1 arg2 harg2 arg3 harg3 arg4 harg4 arg5 harg5 arg6 harg6 x0 x1 n (Nat.le_of_lt h)
    have e := pb_k0_t1_succ (F := F) 𝒱 c bd i arg1 harg1 arg2 harg2 arg3 harg3 arg4 harg4 arg5 harg5 arg6 harg6 (harg1.unread x0) (harg2.unread x1) (G0 (F := F) arg6) ⟨n, h⟩
    rw [show ((⟨n, h⟩ : Fin k0_t1_loop.trips).val + 1) = n + 1 from rfl, show ((⟨n, h⟩ : Fin k0_t1_loop.trips).val) = n from rfl] at e
    rw [e, tripL1_eq, View.writes_append, read_writes_whole, ih, acc, dif_pos h]

/-- The value the second loop is handed: the accumulator after all the trips of the first. -/
theorem v5_eq (c : Dev nD) (i : grid0.Coords) (arg1 : Memref sig .tc .vmem S512x4096 .f32) (harg1 : arg1.IsWhole) (arg2 : Memref sig .tc .vmem S4096x128 .bf16) (harg2 : arg2.IsWhole) (arg3 : Memref sig .tc .vmem S128x4096 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x128 .f32) (harg6 : arg6.IsWhole)
    (x0 : Vec F S512x4096 .f32) (x1 : Vec F S4096x128 .bf16)  :
    kernelRun0_A.sl.v5 (F := F) c i arg1 harg1 arg2 harg2 arg3 harg3 arg4 harg4 arg5 harg5 arg6 harg6 x0 x1 = acc x0 x1 k0_t1_loop.trips := by
  sl_unfold_words
  rw [View.readAt_eq_ld, View.writes_append, View.ld_unit_zero (S := S512x128) zero2]
  exact acc_read Variants.none c none i arg1 harg1 arg2 harg2 arg3 harg3 arg4 harg4 arg5 harg5 arg6 harg6 x0 x1 _ (le_refl _)

/-! ## The output block as one function

The second loop's trip `k` stores columns `512 k … 512 k + 511`: entry `(r, i)` of the block is entry `(r, i % 512)` of
the payload of chunk `i / 512`. -/

theorem trips1 : k0_t1_loop.trips = 8 := by decide
theorem trips2 : k0_t2_loop.trips = 8 := by decide

/-- The chunk a column lies in. -/
def chunkOf (y : S512x4096.Idx) : Fin k0_t2_loop.trips :=
  ⟨(y 1).val / 512, by rw [trips2]; have := ValueIdx.idx2_lt1 y; omega⟩

/-- The output block, entry by entry. -/
def blockOut (v5 : Vec F S512x128 .f32) (x2 : Vec F S128x4096 .bf16) (x3 : Vec F S1x4096 .f32) : S512x4096.Idx → Elt F .f32 :=
  fun y => k0_pay3 v5 (ohs x2 (chunkOf y)) (bs x3 (chunkOf y))
    (ValueIdx.ix2 ⟨(y 0).val, ValueIdx.idx2_lt0 y⟩ ⟨(y 1).val % 512, Nat.mod_lt _ (by norm_num)⟩)

/-- Every piece the second loop stores is its rectangle's part of `blockOut`. -/
theorem pieces_blockOut (𝒱 : Variants) (c : Dev nD) (bd : Option 𝒱.V) (i : grid0.Coords) (arg1 : Memref sig .tc .vmem S512x4096 .f32) (harg1 : arg1.IsWhole) (arg2 : Memref sig .tc .vmem S4096x128 .bf16) (harg2 : arg2.IsWhole) (arg3 : Memref sig .tc .vmem S128x4096 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x128 .f32) (harg6 : arg6.IsWhole) (v5 : Vec F S512x128 .f32) (x2 : Vec F S128x4096 .bf16) (x3 : Vec F S1x4096 .f32) :
    ∀ n : ℕ, n ≤ k0_t2_loop.trips →
      ∀ p ∈ pb_k0_t2 (F := F) 𝒱 c bd i arg1 harg1 arg2 harg2 arg3 harg3 arg4 harg4 arg5 harg5 arg6 harg6 v5 (harg3.unread x2) (harg4.unread x3) n,
        ∀ x : p.1.shape.Idx, p.2 x = blockOut v5 x2 x3 (p.1.emb x)
  | 0, _ => by
    rw [pb_k0_t2.eq_1]; intro p hp; exact absurd hp List.not_mem_nil
  | n + 1, hn => by
    have h : n < k0_t2_loop.trips := hn
    have ih := pieces_blockOut 𝒱 c bd i arg1 harg1 arg2 harg2 arg3 harg3 arg4 harg4 arg5 harg5 arg6 harg6 v5 x2 x3 n (Nat.le_of_lt h)
    have e := pb_k0_t2_succ (F := F) 𝒱 c bd i arg1 harg1 arg2 harg2 arg3 harg3 arg4 harg4 arg5 harg5 arg6 harg6 v5 (harg3.unread x2) (harg4.unread x3) ⟨n, h⟩
    rw [show ((⟨n, h⟩ : Fin k0_t2_loop.trips).val + 1) = n + 1 from rfl, show ((⟨n, h⟩ : Fin k0_t2_loop.trips).val) = n from rfl] at e
    rw [e, tripL2_eq]
    intro p hp
    rcases List.mem_append.mp hp with hp | hp
    · obtain rfl := List.mem_singleton.mp hp
      intro x
      have h8 : n < 8 := by rw [← trips2]; exact h
      have o0 : k0_off5 ⟨n, h⟩ 0 = 0 := congrFun (k0_off5_eq ⟨n, h⟩) 0
      have o1 : k0_off5 ⟨n, h⟩ 1 = 512 * n := congrFun (k0_off5_eq ⟨n, h⟩) 1
      have hx0 : (x 0).val < 512 := (x 0).isLt
      have hx1 : (x 1).val < 512 := (x 1).isLt
      have e0 : ((Rect.unit (s := S512x4096) (k0_off5 ⟨n, h⟩) S512x512.size (k0_off5_inb ⟨n, h⟩)).emb x 0).val = (x 0).val := by
        show k0_off5 ⟨n, h⟩ 0 + 1 * (x 0).val = _
        omega
      have e1 : ((Rect.unit (s := S512x4096) (k0_off5 ⟨n, h⟩) S512x512.size (k0_off5_inb ⟨n, h⟩)).emb x 1).val = 512 * n + (x 1).val := by
        show k0_off5 ⟨n, h⟩ 1 + 1 * (x 1).val = _
        omega
      have ec : chunkOf ((Rect.unit (s := S512x4096) (k0_off5 ⟨n, h⟩) S512x512.size (k0_off5_inb ⟨n, h⟩)).emb x) = ⟨n, h⟩ := by
        apply Fin.ext; show _ / 512 = n; rw [e1]; omega
      show k0_pay3 v5 (ohs x2 ⟨n, h⟩) (bs x3 ⟨n, h⟩) x = blockOut v5 x2 x3 _
      unfold blockOut
      rw [ec]
      congr 1
      funext a
      match a with
      | ⟨0, _⟩ => exact Fin.ext e0.symm
      | ⟨1, _⟩ => apply Fin.ext; show (x 1).val = _ % 512; rw [e1]; omega
    · exact ih p hp

/-- WHAT THE BODY LEAVES in the output's staging buffer: `blockOut` of the accumulator the first loop ends with. -/
theorem out_eq (c : Dev nD) (i : grid0.Coords) (arg1 : Memref sig .tc .vmem S512x4096 .f32) (harg1 : arg1.IsWhole) (arg2 : Memref sig .tc .vmem S4096x128 .bf16) (harg2 : arg2.IsWhole) (arg3 : Memref sig .tc .vmem S128x4096 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x128 .f32) (harg6 : arg6.IsWhole)
    (x0 : Vec F S512x4096 .f32) (x1 : Vec F S4096x128 .bf16) (x2 : Vec F S128x4096 .bf16) (x3 : Vec F S1x4096 .f32) :
    out0_A_4 (F := F) c i arg1 harg1 arg2 harg2 arg3 harg3 arg4 harg4 arg5 harg5 arg6 harg6 x0 x1 x2 x3 = blockOut (acc x0 x1 k0_t1_loop.trips) x2 x3 := by
  unfold out0_A_4
  rw [View.read_writes_junk_eq_canon]
  funext y
  refine View.canon_apply_of_pieces (blockOut (acc x0 x1 k0_t1_loop.trips) x2 x3) _ ?_ y (cover0_A_4 c i arg1 harg1 arg2 harg2 arg3 harg3 arg4 harg4 arg5 harg5 arg6 harg6 x0 x1 x2 x3 y)
  have hL : (kernelRun0_A (F := F) c i arg1 harg1 arg2 harg2 arg3 harg3 arg4 harg4 arg5 harg5 arg6 harg6 x0 x1 x2 x3).1
      = pb_k0_t2 (F := F) Variants.none c none i arg1 harg1 arg2 harg2 arg3 harg3 arg4 harg4 arg5 harg5 arg6 harg6
          (acc x0 x1 k0_t1_loop.trips) (harg3.unread x2) (harg4.unread x3) k0_t2_loop.trips := by
    rw [← v5_eq c i arg1 harg1 arg2 harg2 arg3 harg3 arg4 harg4 arg5 harg5 arg6 harg6 x0 x1]
    unfold kernelRun0_A
    rfl
  rw [hL]
  exact pieces_blockOut Variants.none c none i arg1 harg1 arg2 harg2 arg3 harg3 arg4 harg4 arg5 harg5 arg6 harg6 _ x2 x3 _ (le_refl _)

/-! ## The block's entries as sums, on the extended reals -/

section IdealValue

open ValueIdx

theorem lt8₁ (k : Fin k0_t1_loop.trips) : k.val < 8 := Nat.lt_of_lt_of_le k.isLt (le_of_eq trips1)
theorem lt8₂ (k : Fin k0_t2_loop.trips) : k.val < 8 := Nat.lt_of_lt_of_le k.isLt (le_of_eq trips2)

theorem xs_apply (x0 : Vec Ideal S512x4096 .f32) (k : Fin k0_t1_loop.trips) (r : Fin 512) (d : Fin 512) :
    xs x0 k (ix2 r d) = x0 (ix2 r ⟨512 * k.val + d.val, by have := lt8₁ k; omega⟩) := by
  unfold xs View.ld
  refine congrArg x0 (funext fun a => Fin.ext ?_)
  have o0 : k0_off1 k 0 = 0 := congrFun (k0_off1_eq k) 0
  have o1 : k0_off1 k 1 = 512 * k.val := congrFun (k0_off1_eq k) 1
  match a with
  | ⟨0, _⟩ => show k0_off1 k 0 + 1 * r.val = r.val; omega
  | ⟨1, _⟩ => show k0_off1 k 1 + 1 * d.val = 512 * k.val + d.val; omega

theorem gs_apply (x1 : Vec Ideal S4096x128 .bf16) (k : Fin k0_t1_loop.trips) (d : Fin 512) (q : Fin 128) :
    gs x1 k (ix2 d q) = x1 (ix2 ⟨512 * k.val + d.val, by have := lt8₁ k; omega⟩ q) := by
  unfold gs View.ld
  refine congrArg x1 (funext fun a => Fin.ext ?_)
  have o0 : k0_off2 k 0 = 512 * k.val := congrFun (k0_off2_eq k) 0
  have o1 : k0_off2 k 1 = 0 := congrFun (k0_off2_eq k) 1
  match a with
  | ⟨0, _⟩ => show k0_off2 k 0 + 1 * d.val = 512 * k.val + d.val; omega
  | ⟨1, _⟩ => show k0_off2 k 1 + 1 * q.val = q.val; omega

theorem ohs_apply (x2 : Vec Ideal S128x4096 .bf16) (k : Fin k0_t2_loop.trips) (q : Fin 128) (e : Fin 512) :
    ohs x2 k (ix2 q e) = x2 (ix2 q ⟨512 * k.val + e.val, by have := lt8₂ k; omega⟩) := by
  unfold ohs View.ld
  refine congrArg x2 (funext fun a => Fin.ext ?_)
  have o0 : k0_off3 k 0 = 0 := congrFun (k0_off3_eq k) 0
  have o1 : k0_off3 k 1 = 512 * k.val := congrFun (k0_off3_eq k) 1
  match a with
  | ⟨0, _⟩ => show k0_off3 k 0 + 1 * q.val = q.val; omega
  | ⟨1, _⟩ => show k0_off3 k 1 + 1 * e.val = 512 * k.val + e.val; omega

theorem bs_apply (x3 : Vec Ideal S1x4096 .f32) (k : Fin k0_t2_loop.trips) (e : Fin 512) :
    bs x3 k (ix2 (0 : Fin 1) e) = x3 (ix2 (0 : Fin 1) ⟨512 * k.val + e.val, by have := lt8₂ k; omega⟩) := by
  unfold bs View.ld
  refine congrArg x3 (funext fun a => Fin.ext ?_)
  have o0 : k0_off4 k 0 = 0 := congrFun (k0_off4_eq k) 0
  have o1 : k0_off4 k 1 = 512 * k.val := congrFun (k0_off4_eq k) 1
  match a with
  | ⟨0, _⟩ => show k0_off4 k 0 + 1 * 0 = 0; omega
  | ⟨1, _⟩ => show k0_off4 k 1 + 1 * e.val = 512 * k.val + e.val; omega

/-- One term of the skinny product's entry `(r, k)`, indexed by a natural number (zero past the last feature). -/
def term (x0 : Vec Ideal S512x4096 .f32) (x1 : Vec Ideal S4096x128 .bf16) (r : Fin 512) (k : Fin 128) (j : ℕ) : EReal :=
  if h : j < 4096 then x0 (ix2 r ⟨j, h⟩) * x1 (ix2 ⟨j, h⟩ k) else 0

/-- After `n` trips the accumulator's entry `(r, k)` is the sum of the first `512 n` terms. -/
theorem acc_apply (x0 : Vec Ideal S512x4096 .f32) (x1 : Vec Ideal S4096x128 .bf16) (r : Fin 512) (k : Fin 128) :
    ∀ n : ℕ, n ≤ 8 → acc x0 x1 n (ix2 r k) = ∑ j ∈ Finset.range (512 * n), term x0 x1 r k j
  | 0, _ => by
    rw [acc, pay1_apply]; simp
  | n + 1, hn => by
    have h8 : n < 8 := hn
    have h : n < k0_t1_loop.trips := by rw [trips1]; exact h8
    rw [acc, dif_pos h, pay2_apply, acc_apply x0 x1 r k n (Nat.le_of_lt h8), VQ.sum_range_chunk]
    congr 1
    refine Finset.sum_congr rfl fun d _ => ?_
    rw [xs_apply, gs_apply, term, dif_pos (by omega)]

/-- When the first loop ends, entry `(r, k)` is the whole sum over the 4096 features. -/
theorem acc_full (x0 : Vec Ideal S512x4096 .f32) (x1 : Vec Ideal S4096x128 .bf16) (r : Fin 512) (k : Fin 128) :
    acc x0 x1 k0_t1_loop.trips (ix2 r k) = ∑ j : Fin 4096, x0 (ix2 r j) * x1 (ix2 j k) := by
  rw [trips1, acc_apply x0 x1 r k 8 (le_refl _), VQ.sum_fin_eq_range]
  rfl

/-- THE BLOCK'S ENTRY `(r, i)`: the one-hot product picks column `a i` of the skinny product (its low part, a difference of
    a real with itself, vanishes), and the bias is added. -/
theorem blockOut_apply (x0 : Vec Ideal S512x4096 .f32) (g : Vec Ideal S4096x128 .bf16) (a : IVec S4096 32) (b3 : Vec Ideal S1x4096 .f32)
    (hr : VQ.InRange a) (hx : ∀ y, ∃ z : ℝ, x0 y = (z : EReal)) (hg : ∀ y, ∃ z : ℝ, g y = (z : EReal)) (r : Fin 512) (i : Fin 4096) :
    blockOut (F := Ideal) (acc x0 g k0_t1_loop.trips) (VQ.onehot a) b3 (ix2 r i)
      = (∑ j : Fin 4096, x0 (ix2 r j) * g (ix2 j (VQ.colOf a i))) + b3 (ix2 (0 : Fin 1) i) := by
  have hc : (⟨i.val / 512, by have := i.isLt; have := trips2; omega⟩ : Fin k0_t2_loop.trips) = chunkOf (ix2 r i) := rfl
  unfold blockOut
  rw [← hc, pay3_apply]
  have hcol : ∀ q : Fin 128, ohs (F := Ideal) (VQ.onehot a) ⟨i.val / 512, by have := i.isLt; have := trips2; omega⟩ (ix2 q ⟨i.val % 512, Nat.mod_lt _ (by norm_num)⟩)
      = (if q.val = VQ.code a i then (1 : EReal) else 0) := by
    intro q
    rw [ohs_apply]
    have : (⟨512 * (i.val / 512) + i.val % 512, by have := i.isLt; omega⟩ : Fin 4096) = i := Fin.ext (by show 512 * (i.val / 512) + i.val % 512 = i.val; omega)
    rw [this]; rfl
  have hb : bs (F := Ideal) b3 ⟨i.val / 512, by have := i.isLt; have := trips2; omega⟩ (ix2 (0 : Fin 1) ⟨i.val % 512, Nat.mod_lt _ (by norm_num)⟩) = b3 (ix2 (0 : Fin 1) i) := by
    rw [bs_apply]
    have : (⟨512 * (i.val / 512) + i.val % 512, by have := i.isLt; omega⟩ : Fin 4096) = i := Fin.ext (by show 512 * (i.val / 512) + i.val % 512 = i.val; omega)
    rw [this]
  simp only [hcol]
  rw [hb]
  have hfin : ∀ q : Fin 128, ∃ z : ℝ, acc x0 g k0_t1_loop.trips (ix2 ⟨r.val, r.isLt⟩ q) = (z : EReal) := by
    intro q
    rw [acc_full]
    exact VQ.finite_sum_mul _ _ (fun j => hx _) (fun j => hg _)
  rw [VQ.hi_lo_select (fun q => acc x0 g k0_t1_loop.trips (ix2 ⟨r.val, r.isLt⟩ q)) hfin (VQ.code a i) (VQ.code_lt hr i)]
  rw [acc_full]
  have : (⟨VQ.code a i, VQ.code_lt hr i⟩ : Fin 128) = VQ.colOf a i := Fin.ext (VQ.colOf_val hr i).symm
  rw [this]

end IdealValue

/-! ## What grid point `t` leaves in the output block -/

section Point

open ValueIdx

theorem shapeCast_finite {s u : Shape} (x : s.Idx → EReal) (h : s.ShapeCasts u) (hx : VQ.Finite x) : VQ.Finite (shapeCast u x h) := by
  intro j; unfold shapeCast; exact hx _

/-- The block's entry `(r, i)` over the arrays the region finds, for abstract blocks: rows of `xf` against the gathered
    table, column `a i`, plus the bias. -/
theorem block_value (xf : S16384x4096.Idx → EReal) (q : S4096x128.Idx → EReal) (a : IVec S4096 32) (b : S4096.Idx → EReal)
    (x0 : Vec Ideal S512x4096 .f32) (row : Fin 512 → Fin 16384)
    (hx0 : ∀ (r : Fin 512) (j : Fin 4096), x0 (ix2 r j) = xf (ix2 (row r) j))
    (hr : VQ.InRange a) (hxf : VQ.Finite xf) (hq : VQ.Finite q) (r : Fin 512) (i : Fin 4096) :
    blockOut (F := Ideal) (acc x0 (VQ.gathered q a) k0_t1_loop.trips) (VQ.onehot a) (fun y : S1x4096.Idx => b (ix1 (y 1))) (ix2 r i)
      = VQ.flatOut xf q a b (ix2 (row r) i) := by
  have hx : ∀ y, ∃ z : ℝ, x0 y = (z : EReal) := by
    intro y
    obtain ⟨r', j, rfl⟩ : ∃ (r' : Fin 512) (j : Fin 4096), y = ix2 r' j := ⟨y 0, y 1, eq_ix2 y⟩
    rw [hx0]; exact hxf _
  have hg : ∀ y, ∃ z : ℝ, VQ.gathered q a y = (z : EReal) := fun y => hq _
  rw [blockOut_apply x0 (VQ.gathered q a) a _ hr hx hg r i]
  unfold VQ.flatOut VQ.qm
  congr 1
  refine Finset.sum_congr rfl fun j _ => ?_
  rw [hx0]
  rfl

/-- WHAT GRID POINT `t` LEAVES IN THE OUTPUT BLOCK: rows `512 t … 512 t + 511` of the layer's output on the flattened batch. -/
theorem outsAt_eq (m : (ℓ : Loc nD τ sig) → Buf (Elt Ideal) ℓ) (c : Dev nD) (t : Fin cfg0.N)
    (hr : VQ.InRange (m ((c : Thread nD τ).loc main_arg2)))
    (hx : VQ.Finite (s := S4x4096x4096) (m ((c : Thread nD τ).loc main_arg0)))
    (hq : VQ.Finite (s := S4096x128) (m ((c : Thread nD τ).loc main_arg1))) :
    outsAt0 (F := Ideal) m c t = fun y : S512x4096.Idx =>
      VQ.flatOut (shapeCast S16384x4096 (m ((c : Thread nD τ).loc main_arg0)) shapeCasts_S4x4096x4096_S16384x4096)
        (m ((c : Thread nD τ).loc main_arg1)) (m ((c : Thread nD τ).loc main_arg2)) (m ((c : Thread nD τ).loc main_arg3))
        (ValueIdx.ix2 ⟨(512 * t.val + (y 0).val) % 16384, Nat.mod_lt _ (by norm_num)⟩ (y 1)) := by
  have e1 : outsAt0 (F := Ideal) m c t
      = blockOut (F := Ideal) (acc (xblk m c t) (gblk m c t) k0_t1_loop.trips) (ohblk m c t) (bblk m c t) :=
    out_eq (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) (iblk m c 3 t)
  have eg : gblk m c t = VQ.gathered (m ((c : Thread nD τ).loc main_arg1)) (m ((c : Thread nD τ).loc main_arg2)) :=
    (gblk_eq m c t).trans (win_g m c hr)
  have eo : ohblk m c t = VQ.onehot (m ((c : Thread nD τ).loc main_arg2)) := (ohblk_eq m c t).trans (win_oh m c hr)
  have eb : bblk m c t = fun y : S1x4096.Idx => m ((c : Thread nD τ).loc main_arg3) (ix1 (y 1)) := (bblk_eq m c t).trans (win_b m c)
  have ex : ∀ (r : Fin 512) (j : Fin 4096), xblk m c t (ix2 r j)
      = (shapeCast S16384x4096 (m ((c : Thread nD τ).loc main_arg0)) shapeCasts_S4x4096x4096_S16384x4096 : S16384x4096.Idx → EReal)
          (ix2 ⟨(512 * t.val + r.val) % 16384, Nat.mod_lt _ (by norm_num)⟩ j) := by
    intro r j
    rw [xblk_apply m c t r j]
    exact congrFun (win_x m c) _
  rw [e1, eg, eo, eb]
  funext y
  obtain ⟨r, i, rfl⟩ : ∃ (r : Fin 512) (i : Fin 4096), y = ix2 r i := ⟨y 0, y 1, eq_ix2 y⟩
  exact block_value _ _ _ _ (xblk m c t) (fun r => ⟨(512 * t.val + r.val) % 16384, Nat.mod_lt _ (by norm_num)⟩) ex hr
    (shapeCast_finite _ _ hx) hq r i

end Point

end Cert.KernelIdeal.KVal
end
-- ==== Proof.KValue.lean ====
/-
  From the kernel's blocks to its result array, and the kernel's run read.

  The grid has 32 points. Point `t` computes rows `512 t … 512 t + 511` of the layer's output on the flattened batch
  (`[16384, 4096]`) and writes them back as block `(t, 0)` of the output array, whose blocks are `[512, 4096]`. Every
  point writes back and the 32 blocks tile the array, so after the region the array holds the layer's output. One
  host operation follows, the reshape of that array to the batch's shape `[4, 4096, 4096]`; nothing writes the four
  arguments.
-/
import proofs.«406552_j35390530520001_3_alg».proof.Defs
import proofs.«406552_j35390530520001_3_alg».proof.Proof.Gen.KernelIdeal.Frame
import proofs.«406552_j35390530520001_3_alg».proof.Proof.KBody
import proofs.«406552_j35390530520001_3_alg».proof.Proof.Spec
import Idealize.ShloMosaic.Lib.Pipeline.Value
import Idealize.ShloMosaic.Lib.Pipeline.FrameSuffix
import Idealize.ShloMosaic.Lib.StableHlo.Run

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-- The batch flattened to rows: row `t` of the `[16384, 4096]` matrix is row `t % 4096` of slab `t / 4096`. -/
abbrev XF (c : Dev nD) : S16384x4096.Idx → EReal :=
  shapeCast S16384x4096 (m ((c : Thread nD τ).loc main_arg0)) shapeCasts_S4x4096x4096_S16384x4096

/-- The layer's output on the flattened batch, of the launch memory's four arguments. -/
abbrev OUT (c : Dev nD) : S16384x4096.Idx → EReal :=
  VQ.flatOut (XF m c) (m ((c : Thread nD τ).loc main_arg1)) (m ((c : Thread nD τ).loc main_arg2)) (m ((c : Thread nD τ).loc main_arg3))

/-- The output window's index map, decided over the grid: point `t` writes block `(t, 0)`. -/
theorem idx4 : ∀ t : Fin cfg0.N, win0_4.index t = ![t.val, 0] :=
  (by decide +kernel : ∀ t : Fin grid0.N, win0_4.index t = ![t.val, 0])

/-- What grid point `t` writes back is block `t` of the layer's output: the block's element `(r, j)` sits at row
    `512 t + r` (below 16384, so the reduction modulo 16384 does nothing) and column `j` of the array. -/
theorem flushed_eq (c : Dev nD) (t : Fin cfg0.N)
    (hr : VQ.InRange (m ((c : Thread nD τ).loc main_arg2)))
    (hx : VQ.Finite (s := S4x4096x4096) (m ((c : Thread nD τ).loc main_arg0)))
    (hq : VQ.Finite (s := S4096x128) (m ((c : Thread nD τ).loc main_arg1))) :
    (dats m 0 c).flushed 4 t = ((cfg0.win 4).blk t).view.read (Elt Ideal) (OUT m c) := by
  show (cfg0.win 4).cut (grid0.coords t) ((dats m 0 c).after 4 t) = _
  rw [after0_4, outsAt_eq m c t hr hx hq]
  funext y
  show OUT m c (ValueIdx.ix2 ⟨(512 * t.val + (y 0).val) % 16384, Nat.mod_lt _ (by norm_num)⟩ (y 1))
    = OUT m c (((cfg0.win 4).blk t).view.emb y)
  refine congrArg (OUT m c) ?_
  have hN : cfg0.N = 32 := N_0
  have ht : t.val < 32 := hN ▸ t.isLt
  have e := idx4 t
  have e0 : win0_4.index t (0 : Fin 2) = t.val := congrFun e 0
  have e1 : win0_4.index t (1 : Fin 2) = 0 := congrFun e 1
  funext a
  apply Fin.ext
  match a with
  | ⟨0, _⟩ =>
    show (512 * t.val + (y 0).val) % 16384 = win0_4.index t (0 : Fin 2) * 512 + 1 * (y 0).val
    have hy : (y 0).val < 512 := (y 0).isLt
    omega
  | ⟨1, _⟩ =>
    show (y 1).val = win0_4.index t (1 : Fin 2) * 4096 + 1 * (y 1).val
    omega

/-- An index of the output array is in point `t`'s block iff each coordinate is in the block's range on its axis. -/
theorem mem_blk4 (t : Fin cfg0.N) (i : S16384x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v12).slice (win0_4.rect t)).set ↔ _
  rw [View.set_slice_whole, Rect.mem_set_unit]
  exact Iff.rfl

/-- The 32 blocks of 512 rows tile the 16384 rows: row `r` is in the block of point `r / 512`, which writes back. -/
theorem cover4 (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hN : cfg0.N = 32 := N_0
  have hlt : (i 0).val / 512 < cfg0.N := by rw [hN]; omega
  have e := idx4 ⟨(i 0).val / 512, hlt⟩
  have e0 : win0_4.index ⟨(i 0).val / 512, hlt⟩ (0 : Fin 2) = (i 0).val / 512 := congrFun e 0
  have e1 : win0_4.index ⟨(i 0).val / 512, hlt⟩ (1 : Fin 2) = 0 := congrFun e 1
  refine ⟨⟨(i 0).val / 512, hlt⟩, flush0_4 _, ?_⟩
  rw [mem_blk4]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    omega
  | ⟨1, _⟩ =>
    show win0_4.index ⟨(i 0).val / 512, hlt⟩ (1 : Fin 2) * 4096 ≤ (i 1).val
      ∧ (i 1).val < win0_4.index ⟨(i 0).val / 512, hlt⟩ (1 : Fin 2) * 4096 + 4096
    omega

/-- THE OUTPUT ARRAY AFTER THE REGION is the layer's output on the flattened batch. -/
theorem final (c : Dev nD)
    (hr : VQ.InRange (m ((c : Thread nD τ).loc main_arg2)))
    (hx : VQ.Finite (s := S4x4096x4096) (m ((c : Thread nD τ).loc main_arg0)))
    (hq : VQ.Finite (s := S4096x128) (m ((c : Thread nD τ).loc main_arg1))) :
    (dats m 0 c).arrAt 4 cfg0.N = OUT m c :=
  (dats m 0 c).arrAt_eq_of_cover 4 (OUT m c) (fun t _ => flushed_eq m c t hr hx hq) (cover4)

/-- After the region one host operation reshapes the output array `[16384, 4096]` to `[4, 4096, 4096]`: its result is
    that reshape of the layer's output. -/
theorem tail_v13 (c : Dev nD)
    (hr : VQ.InRange (m ((c : Thread nD τ).loc main_arg2)))
    (hx : VQ.Finite (s := S4x4096x4096) (m ((c : Thread nD τ).loc main_arg0)))
    (hq : VQ.Finite (s := S4096x128) (m ((c : Thread nD τ).loc main_arg1))) :
    Pipeline.afterTail₀ cfgs (dats m) 0 (V0 m) [hostOps1] c main_v13
      = shapeCast S4x4096x4096 (OUT m c) shapeCasts_S16384x4096_S4x4096x4096 := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v12)
      = OUT m c :=
    (Pipeline.withArrays_arr spec0 launch0.win.arr_inj c _ _ 4).trans (final m c hr hx hq)
  exact congrArg (fun A : S16384x4096.Idx → EReal => shapeCast S4x4096x4096 A shapeCasts_S16384x4096_S4x4096x4096) e

/-- THE KERNEL'S RUN, READ: from any memory with zero counters, every weakly fair execution of the program terminates;
    the result array ends holding the layer's output reshaped to the batch's shape, and the four arguments are unchanged. -/
theorem run (ρ : Dev nD → PrngReg)
    (hr : ∀ c : Dev nD, VQ.InRange (m ((c : Thread nD τ).loc main_arg2)))
    (hx : ∀ c : Dev nD, VQ.Finite (s := S4x4096x4096) (m ((c : Thread nD τ).loc main_arg0)))
    (hq : ∀ c : Dev nD, VQ.Finite (s := S4096x128) (m ((c : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v13) = shapeCast S4x4096x4096 (OUT m c) shapeCasts_S16384x4096_S4x4096x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v13 (Pipeline.mem_restRefs_of main_v13 (by decide) (by decide))).trans (tail_v13 m c (hr c) (hx c) (hq c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KVal

end
-- ==== Proof.lean ====
/-
  A vector-quantised linear layer: kernel against reference, on the extended reals.

  Both programs flatten the batch `x : [4, 4096, 4096]` to `xf : [16384, 4096]`, represent feature `j` by row `a j` of
  the codebook table `q : [4096, 128]`, form the skinny product `qm[t, k] = ∑ j, xf[t, j] · q[a j, k]`, let output feature
  `i` read column `a i` of it, add the bias, and restore the batch shape. The reference does the two selections by
  gathers; the kernel does the first by a gather of the codes cut off into `[0, 127]` and the second by a product with the
  one-hot matrix of the codes, split in a high and a low part of which the low part, `(qm − qm) · onehot`, is zero
  wherever `qm` is a real number. So the two results agree where the codes are in `[0, 128)` and the float inputs are
  finite: that is the precondition. Outside that range of codes the reference itself wraps a negative code around or
  fills the row with a not-a-number, while the kernel cuts the code off.

  The reference's run and value are in `Proof/RefRun.lean` and `Proof/RefRead.lean`; the arrays the kernel's region
  finds in `Proof/KWindows.lean`; its body's value at a grid point in `Proof/KBody.lean` (over `KPayloads`, `KBlocks`,
  `Algebra`); the result array and the kernel's run in `Proof/KValue.lean`; the precondition read as facts about the
  arguments in `Proof/PreFacts.lean`; the common specification in `Proof/Spec.lean`.
-/
import proofs.«406552_j35390530520001_3_alg».proof.Defs
import proofs.«406552_j35390530520001_3_alg».proof.Proof.Gen.Kernel
import proofs.«406552_j35390530520001_3_alg».proof.Proof.Gen.Kernel.Frame
import proofs.«406552_j35390530520001_3_alg».proof.Proof.Gen.KernelIdeal
import proofs.«406552_j35390530520001_3_alg».proof.Proof.Gen.KernelIdeal.Frame
import proofs.«406552_j35390530520001_3_alg».proof.Proof.Gen.ReferenceIdeal
import proofs.«406552_j35390530520001_3_alg».proof.Proof.Gen.Pre_finite_inputs
import proofs.«406552_j35390530520001_3_alg».proof.Proof.PreFacts
import proofs.«406552_j35390530520001_3_alg».proof.Proof.RefRead
import proofs.«406552_j35390530520001_3_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and its arguments end unchanged: its run with the result dropped. -/
theorem frame_ri : Cert.frame_ReferenceIdeal := fun m ρ _ =>
  (θ_run Cert.ReferenceIdeal.defs _ _).mono (fun _ h c => (h c).2) (Cert.ReferenceIdeal.RefValue.run m ρ)

/-- The one rewrite of the ideal pass: widening back what was narrowed to the 16-bit format is the identity at the
    ideal instance. -/
theorem preserves : Cert.preserves_Kernel_KernelIdeal := IdealRules.truncf_extf.statement _ .f32 .bf16

/-- Where the codes are in range and the float inputs finite, both programs end with the layer's output. -/
theorem algebraic : Cert.algebraic_KernelIdeal_ReferenceIdeal := by
  intro m ρ m' ρ' hpre hagree
  have hd := fun c : Dev Cert.KernelIdeal.nD => VQ.Pre.decode _ _ _ _ (hpre c)
  refine ⟨_, Cert.KernelIdeal.KVal.run m ρ (fun c => (hd c).2.2.2) (fun c => (hd c).1) (fun c => (hd c).2.1), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  exact Cert.ReferenceIdeal.RefValue.refTerm_eq _ _ _ _ (hd c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
